-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S1000000x128 : Shape := ⟨2, ![1000000, 128]⟩
abbrev S3 : Shape := ⟨1, ![3]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S3 : S_.BroadcastsInDim S3 (![] : Fin 0 → Fin S3.rank)
  reducesTo_S3_S_d0 : S3.ReducesTo [0] S_

variable [Facts]

def fn {F : FTy → Type} [FloatOps F] (main_arg0 : FVec F S64x128 .f32) (main_arg1 : FVec F S1000000x128 .f32) (main_arg2 : FVec F S3 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S64x128 : Shape := ⟨2, ![64, 128]⟩
abbrev S1000000x128 : Shape := ⟨2, ![1000000, 128]⟩
abbrev S3 : Shape := ⟨1, ![3]⟩
abbrev S_ : Shape := ⟨0, ![]⟩
abbrev S64 : Shape := ⟨1, ![64]⟩
abbrev S64x1 : Shape := ⟨2, ![64, 1]⟩
abbrev S1 : Shape := ⟨1, ![1]⟩
abbrev S64x1000000 : Shape := ⟨2, ![64, 1000000]⟩
abbrev S8192x128 : Shape := ⟨2, ![8192, 128]⟩
abbrev S64x8192 : Shape := ⟨2, ![64, 8192]⟩
abbrev S8192 : Shape := ⟨1, ![8192]⟩
abbrev S8192x1 : Shape := ⟨2, ![8192, 1]⟩

abbrev nBuf : Space → Nat
  | .hbm => 33
  | .vmem => 5
  | .smem => 0
  | _ => 0

abbrev bufTy : (tb : Table) → Fin (tcTables nBuf tb) → BufTy
  | .hbm, ⟨0, _⟩ => ⟨S64x128, .f32⟩
  | .hbm, ⟨1, _⟩ => ⟨S1000000x128, .f32⟩
  | .hbm, ⟨2, _⟩ => ⟨S3, .f32⟩
  | .hbm, ⟨3, _⟩ => ⟨S3, .f32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S3, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S3, .f32⟩
  | .hbm, ⟨24, _⟩ => ⟨S3, .f32⟩
  | .hbm, ⟨25, _⟩ => ⟨S3, .f32⟩
  | .hbm, ⟨26, _⟩ => ⟨S_, .f32⟩
  | .hbm, ⟨27, _⟩ => ⟨S_, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x1000000, .f32⟩
  | .local _ .vmem, ⟨0, _⟩ => ⟨S64x128, .f32⟩
  | .local _ .vmem, ⟨1, _⟩ => ⟨S8192x128, .f32⟩
  | .local _ .vmem, ⟨2, _⟩ => ⟨S8192x128, .f32⟩
  | .local _ .vmem, ⟨3, _⟩ => ⟨S64x8192, .f32⟩
  | .local _ .vmem, ⟨4, _⟩ => ⟨S64x8192, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S64x128_S64_d1 : S64x128.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S64x1_S64x128_0_1 : S64x1.BroadcastsInDim S64x128 (![0, 1] : Fin 2 → Fin S64x128.rank)
  bcast_S_S64x128 : S_.BroadcastsInDim S64x128 (![] : Fin 0 → Fin S64x128.rank)
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x8192_S64x8192_0_0 : ∀ a, (![0, 0] : Fin 2 → Nat) a + S64x8192.size a ≤ S64x8192.size a
  h_S64x8192 : 0 < S64x8192.numel
  dot_S64x128_S8192x128_S64x8192_1_1_0_0_n_n_wf : DotDims.WF S64x128 S8192x128 S64x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .f32 = 32 ∨ (Rect.block (s := S64x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S1000000x128.size a
  hwx0_1 : ∀ i : grid0.Coords, EltTy.bits .f32 = 32 ∨ (Rect.unit (s := S1000000x128) (fun a => cc0_transform_1 i a * S8192x128.size a) (fun a => (Pipeline.Clip.of (cc0_transform_1 i a) (S8192x128.size a) (S1000000x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S1000000x128.size a)).extent (S8192x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x8192.size a < S64x1000000.size a
  hwx0_2 : ∀ i : grid0.Coords, EltTy.bits .f32 = 32 ∨ (Rect.unit (s := S64x1000000) (fun a => cc0_transform_2 i a * S64x8192.size a) (fun a => (Pipeline.Clip.of (cc0_transform_2 i a) (S64x8192.size a) (S64x1000000.size a)).extent (S64x8192.size a)) fun a => Pipeline.Clip.inb (Pipeline.Clip.ok_of (hstart0_2 i a))).WholeWords (EltTy.packing .f32)
  hwxs0_2 : ∀ i : grid0.Coords, EltTy.bits .f32 = 32 ∨ (Rect.unit (s := S64x8192) (fun _ => 0) (fun a => (Pipeline.Clip.of (cc0_transform_2 i a) (S64x8192.size a) (S64x1000000.size a)).extent (S64x8192.size a)) fun a => (Nat.zero_add _).trans_le (Pipeline.Clip.extent_le (Pipeline.Clip.ok_of (hstart0_2 i a)))).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf

abbrev win0_0 : Pipeline.Window sig grid0 :=
  Pipeline.Window.ofSpec (Memref.whole main_v18) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v19) S64x8192.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x128 : Shape := ⟨2, ![64, 128]⟩
abbrev S1000000x128 : Shape := ⟨2, ![1000000, 128]⟩
abbrev S3 : Shape := ⟨1, ![3]⟩
abbrev S_ : Shape := ⟨0, ![]⟩
abbrev S64 : Shape := ⟨1, ![64]⟩
abbrev S64x1 : Shape := ⟨2, ![64, 1]⟩
abbrev S1000000 : Shape := ⟨1, ![1000000]⟩
abbrev S1000000x1 : Shape := ⟨2, ![1000000, 1]⟩
abbrev S64x1000000 : Shape := ⟨2, ![64, 1000000]⟩
abbrev S1 : Shape := ⟨1, ![1]⟩

abbrev nBuf : Space → Nat
  | .hbm => 43
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S1000000x128, .f32⟩
  | .hbm, ⟨2, _⟩ => ⟨S3, .f32⟩
  | .hbm, ⟨3, _⟩ => ⟨S3, .f32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x128, .f32⟩
  | .hbm, ⟨13, _⟩ => ⟨S64x128, .f32⟩
  | .hbm, ⟨14, _⟩ => ⟨S1000000x128, .f32⟩
  | .hbm, ⟨15, _⟩ => ⟨S_, .f32⟩
  | .hbm, ⟨16, _⟩ => ⟨S1000000, .f32⟩
  | .hbm, ⟨17, _⟩ => ⟨S1000000x1, .f32⟩
  | .hbm, ⟨18, _⟩ => ⟨S1000000x1, .f32⟩
  | .hbm, ⟨19, _⟩ => ⟨S_, .f32⟩
  | .hbm, ⟨20, _⟩ => ⟨S1000000x1, .f32⟩
  | .hbm, ⟨21, _⟩ => ⟨S1000000x1, .f32⟩
  | .hbm, ⟨22, _⟩ => ⟨S1000000x128, .f32⟩
  | .hbm, ⟨23, _⟩ => ⟨S1000000x128, .f32⟩
  | .hbm, ⟨24, _⟩ => ⟨S64x1000000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S3, .f32⟩
  | .hbm, ⟨31, _⟩ => ⟨S3, .f32⟩
  | .hbm, ⟨32, _⟩ => ⟨S3, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S3, .f32⟩
  | .hbm, ⟨37, _⟩ => ⟨S3, .f32⟩
  | .hbm, ⟨38, _⟩ => ⟨S3, .f32⟩
  | .hbm, ⟨39, _⟩ => ⟨S_, .f32⟩
  | .hbm, ⟨40, _⟩ => ⟨S_, .f32⟩
  | .hbm, ⟨41, _⟩ => ⟨S64x1000000, .f32⟩
  | .hbm, ⟨42, _⟩ => ⟨S64x1000000, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  reducesTo_S64x128_S64_d1 : S64x128.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  reducesTo_S1000000x128_S1000000_d1 : S1000000x128.ReducesTo [1] S1000000
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S_S64x1000000 : S_.BroadcastsInDim S64x1000000 (![] : Fin 0 → Fin S64x1000000.rank)
  dot_S64x128_S1000000x128_S64x1000000_1_1_0_0_n_n_wf : DotDims.WF S64x128 S1000000x128 S64x1000000 [1] [1] [0] [0] [] []

variable [Facts₀]

def dot_S64x128_S1000000x128_S64x1000000_1_1_0_0_n_n : DotDims S64x128 S1000000x128 S64x1000000 where
  lhsContracting := [1]
  rhsContracting := [1]
  lhsNonContracting := [0]
  rhsNonContracting := [0]
  lhsBatch := []
  rhsBatch := []
  wf := dot_S64x128_S1000000x128_S64x1000000_1_1_0_0_n_n_wf

class Facts : Prop extends Facts₀ where

variable [Facts]
-- ==== Proof.Spec.lean ====
/-
  The mathematics of the cosine-similarity kernel, stated once over the extended reals.

  Inputs: a query matrix `z` (64 rows of 128), a bank `e` (a million rows of 128) and three weights `w`.
  Every row of `z` and of `e` is divided by its Euclidean length, the length clamped from below at a small
  positive constant `eps`; the weights go through a softmax, each probability is divided by a temperature and the
  three quotients are added: the scalar `scale w`. The result at `(b, n)` is the inner product of the unit row
  `b` of `z` with the unit row `n` of `e`, times that scalar.

  Two arrangements of that product occur. One multiplies every entry of the unit query row by the scalar BEFORE
  the inner product is taken (`fusedScore`); the other multiplies the finished inner product (`plainScore`). On the
  extended reals the two agree when every number involved is an honest real; that is shown elsewhere. Here are
  the definitions both sides are read against: the host chains as whole-array terms (`unitRows64`, `unitRowsBank`,
  `scaleArr`, `scaledQuery`, `plainResult`) and the same quantities entry by entry (`rowLen`, `unitEntry`, `scale`).
-/
import Idealize.ShloMosaic.PureOps
import Idealize.ShloMosaic.PureOps.Ideal
import Idealize.ShloMosaic.PureOps.Ideal.Laws
import Idealize.ShloMosaic.Lib.ValueIdx

noncomputable section

open scoped BigOperators

namespace Cert.Cosine

open Idealize.ShloMosaic Idealize.ShloMosaic.ValueIdx

/-! ## Shapes -/

abbrev SQ : Shape := ⟨2, ![64, 128]⟩
abbrev SBank : Shape := ⟨2, ![1000000, 128]⟩
abbrev SW : Shape := ⟨1, ![3]⟩
abbrev S0 : Shape := ⟨0, ![]⟩
abbrev S1u : Shape := ⟨1, ![1]⟩
abbrev SQrows : Shape := ⟨1, ![64]⟩
abbrev SQcol : Shape := ⟨2, ![64, 1]⟩
abbrev SBrows : Shape := ⟨1, ![1000000]⟩
abbrev SBcol : Shape := ⟨2, ![1000000, 1]⟩
abbrev SOut : Shape := ⟨2, ![64, 1000000]⟩

theorem red_SQ : SQ.ReducesTo [1] SQrows := by decide
theorem red_SBank : SBank.ReducesTo [1] SBrows := by decide
theorem red_SW : SW.ReducesTo [0] S0 := by decide
theorem pos_S0 : 0 < S0.numel := by decide
theorem bc_rows_col64 : SQrows.BroadcastsInDim SQcol (![0] : Fin 1 → Fin SQcol.rank) := by decide
theorem bc_S0_col64 : S0.BroadcastsInDim SQcol (![] : Fin 0 → Fin SQcol.rank) := by decide
theorem bc_col64_SQ : SQcol.BroadcastsInDim SQ (![0, 1] : Fin 2 → Fin SQ.rank) := by decide
theorem bc_rows_colB : SBrows.BroadcastsInDim SBcol (![0] : Fin 1 → Fin SBcol.rank) := by decide
theorem bc_S0_colB : S0.BroadcastsInDim SBcol (![] : Fin 0 → Fin SBcol.rank) := by decide
theorem bc_colB_SBank : SBcol.BroadcastsInDim SBank (![0, 1] : Fin 2 → Fin SBank.rank) := by decide
theorem bc_S0_S1u : S0.BroadcastsInDim S1u (![] : Fin 0 → Fin S1u.rank) := by decide
theorem bc_S1u_SW : S1u.BroadcastsInDim SW (![0] : Fin 1 → Fin SW.rank) := by decide
theorem bc_S0_SQ : S0.BroadcastsInDim SQ (![] : Fin 0 → Fin SQ.rank) := by decide
theorem bc_S0_SOut : S0.BroadcastsInDim SOut (![] : Fin 0 → Fin SOut.rank) := by decide
theorem dot_wf : DotDims.WF SQ SBank SOut [1] [1] [0] [0] [] [] := by decide

/-- The contraction of the query's and the bank's second axes: rows against rows. -/
def rowDot : DotDims SQ SBank SOut where
  lhsContracting := [1]
  rhsContracting := [1]
  lhsNonContracting := [0]
  rhsNonContracting := [0]
  lhsBatch := []
  rhsBatch := []
  wf := dot_wf

/-! ## The constants -/

/-- The lower clamp of a row's length: the float nearest to 1e-8. -/
def eps : EReal := Ideal.ofBits .f32 0x322BCC77#32

/-- The three temperatures' words (0.07, 0.1, 0.2 as floats). -/
abbrev tempWord : Fin 3 → BitVec 32 := fun
  | 0 => 0x3D8F5C29#32 | 1 => 0x3DCCCCCD#32 | 2 => 0x3E4CCCCD#32
  | _ => 0#32

/-- The temperatures as an array. -/
def temps : FVec Ideal SW .f32 := fun i => FloatOps.ofBits .f32 (tempWord (SW.rowMajor i))

/-! ## The host chains, as whole-array terms -/

/-- The softmax-weighted sum of inverse temperatures, as the rank-0 array the host operations compute:
    the maximum of the weights (from minus infinity) subtracted, exponentials, their sum, the quotients,
    each divided by its temperature, the sum of those. -/
def scaleArr (w : FVec Ideal SW .f32) : FVec Ideal S0 .f32 :=
  let top : FVec Ideal S0 .f32 :=
    maximumf (constant (F := Ideal) S0 .f32 0xFF800000#32)
      (Host.reduce FloatOps.maximumf w (constant (F := Ideal) S0 .f32 0xFF800000#32) red_SW pos_S0)
  let ex : FVec Ideal SW .f32 := Host.exp (subf w (broadcastInDim SW ![0] bc_S1u_SW (broadcastInDim S1u ![] bc_S0_S1u top)))
  let tot : FVec Ideal S0 .f32 := Host.reduceAdd ex (constant (F := Ideal) S0 .f32 0x00000000#32) red_SW pos_S0
  let prob : FVec Ideal SW .f32 := Host.divf ex (broadcastInDim SW ![0] bc_S1u_SW (broadcastInDim S1u ![] bc_S0_S1u tot))
  Host.reduceAdd (Host.divf prob temps) (constant (F := Ideal) S0 .f32 0x00000000#32) red_SW pos_S0

/-- The query's rows divided by their clamped lengths. -/
def unitRows64 (z : FVec Ideal SQ .f32) : FVec Ideal SQ .f32 :=
  let len : FVec Ideal SQcol .f32 :=
    Host.sqrt (broadcastInDim SQcol ![0] bc_rows_col64
      (Host.reduceAdd (mulf z z) (constant (F := Ideal) S0 .f32 0x00000000#32) red_SQ pos_S0))
  Host.divf z (broadcastInDim SQ ![0, 1] bc_col64_SQ
    (maximumf len (broadcastInDim SQcol ![] bc_S0_col64 (constant (F := Ideal) S0 .f32 0x322BCC77#32))))

/-- The bank's rows divided by their clamped lengths. -/
def unitRowsBank (e : FVec Ideal SBank .f32) : FVec Ideal SBank .f32 :=
  let len : FVec Ideal SBcol .f32 :=
    Host.sqrt (broadcastInDim SBcol ![0] bc_rows_colB
      (Host.reduceAdd (mulf e e) (constant (F := Ideal) S0 .f32 0x00000000#32) red_SBank pos_S0))
  Host.divf e (broadcastInDim SBank ![0, 1] bc_colB_SBank
    (maximumf len (broadcastInDim SBcol ![] bc_S0_colB (constant (F := Ideal) S0 .f32 0x322BCC77#32))))

/-- The unit query rows with the scalar multiplied in: what the kernel is launched on. -/
def scaledQuery (z : FVec Ideal SQ .f32) (w : FVec Ideal SW .f32) : FVec Ideal SQ .f32 :=
  mulf (unitRows64 z) (broadcastInDim SQ ![] bc_S0_SQ (scaleArr w))

/-- The reference's result: unit rows against unit rows, then the scalar. -/
def plainResult (z : FVec Ideal SQ .f32) (e : FVec Ideal SBank .f32) (w : FVec Ideal SW .f32) : FVec Ideal SOut .f32 :=
  mulf (Host.dotGeneral rowDot none (unitRows64 z) (unitRowsBank e)) (broadcastInDim SOut ![] bc_S0_SOut (scaleArr w))

/-! ## The same quantities, entry by entry -/

/-- The clamped Euclidean length of row `r` of an array of rows of 128. -/
def rowLen {n : ℕ} (x : (⟨2, ![n, 128]⟩ : Shape).Idx → EReal) (r : Fin n) : EReal :=
  max (Ideal.sqrt (∑ k : Fin 128, x (ix2 r k) * x (ix2 r k))) eps

/-- Entry `k` of row `r` divided by the row's clamped length. -/
def unitEntry {n : ℕ} (x : (⟨2, ![n, 128]⟩ : Shape).Idx → EReal) (r : Fin n) (k : Fin 128) : EReal :=
  Ideal.div (x (ix2 r k)) (rowLen x r)

/-- The scalar. -/
def scale (w : FVec Ideal SW .f32) : EReal := scaleArr w ix0

/-- The scalar multiplied into the query row before the inner product. -/
def fusedScore (z : FVec Ideal SQ .f32) (e : FVec Ideal SBank .f32) (w : FVec Ideal SW .f32) : FVec Ideal SOut .f32 :=
  fun j => ∑ k : Fin 128, (unitEntry z (j 0) k * scale w) * unitEntry e (j 1) k

/-- The scalar multiplied into the finished inner product. -/
def plainScore (z : FVec Ideal SQ .f32) (e : FVec Ideal SBank .f32) (w : FVec Ideal SW .f32) : FVec Ideal SOut .f32 :=
  fun j => (∑ k : Fin 128, unitEntry z (j 0) k * unitEntry e (j 1) k) * scale w

/-- An extended real that is an honest real number. -/
def IsReal (x : EReal) : Prop := ∃ r : ℝ, x = (r : EReal)

end Cert.Cosine

end
-- ==== Proof.SpecRead.lean ====
/-
  The whole-array host chains of the specification, read entry by entry.

  Each chain is built from pointwise operations, broadcasts along named axes, a sum over the second axis and, for
  the reference's result, a contraction of the two second axes. Read at one index, a pointwise operation acts on the
  entries there, a broadcast reads its operand at the coordinates it keeps, the sum over the second axis is the
  finite sum over that axis's 128 coordinates (its initial value is zero), and the contraction is the finite sum of
  the products of the two rows' entries.
-/
import proofs.«137248_j17746804867779_1_alg».proof.Proof.Spec
import Idealize.ShloMosaic.Lib.Pipeline.Value
import Idealize.ShloMosaic.Lib.ValueLayout

noncomputable section

open scoped BigOperators

namespace Cert.Cosine

open Idealize.ShloMosaic Idealize.ShloMosaic.ValueIdx

/-! ## Pointwise host operations at an index -/

/-- A quotient of arrays at an index is the quotient of the entries there. -/
theorem hostDivf_apply {s : Shape} (x y : FVec Ideal s .f32) (i : s.Idx) :
    Host.divf x y i = Ideal.div (x i) (y i) := rfl

/-- A square root of an array at an index is the square root of the entry there. -/
theorem hostSqrt_apply {s : Shape} (x : FVec Ideal s .f32) (i : s.Idx) :
    Host.sqrt x i = Ideal.sqrt (x i) := rfl

/-! ## The sum of a row's squares -/

/-- Dropping the second axis of the query's shape leaves its rows. -/
theorem redW_SQ : SQ.Reduces [1] SQrows := by decide

/-- Dropping the second axis of the bank's shape leaves its rows. -/
theorem redW_SBank : SBank.Reduces [1] SBrows := by decide

/-- Row `b` with the coordinate `k` put back on the dropped axis is the entry `(b, k)`. -/
theorem lift_SQ (b : Fin 64) (k : Fin 128) : redW_SQ.lift (ix1 b) k = ix2 b k := by
  funext a
  apply Fin.ext
  match a with
  | ⟨0, _⟩ => rfl
  | ⟨1, _⟩ => rfl

/-- Row `n` with the coordinate `k` put back on the dropped axis is the entry `(n, k)`. -/
theorem lift_SBank (n : Fin 1000000) (k : Fin 128) : redW_SBank.lift (ix1 n) k = ix2 n k := by
  funext a
  apply Fin.ext
  match a with
  | ⟨0, _⟩ => rfl
  | ⟨1, _⟩ => rfl

/-- The sum over the second axis of the squared query, at row `b`: zero plus the 128 squares of that row. -/
theorem sumSq64 (z : FVec Ideal SQ .f32) (b : Fin 64) :
    Host.reduceAdd (mulf z z) (constant (F := Ideal) S0 .f32 0x00000000#32) red_SQ pos_S0 (ix1 b)
      = ∑ k : Fin 128, z (ix2 b k) * z (ix2 b k) := by
  unfold Host.reduceAdd
  rw [Ideal.hostReduceAdd_def, Ideal.hostReduceAdd_single red_SQ redW_SQ, constant_apply, Ideal.ofBits_zero_f32, zero_add]
  show ∑ k : Fin 128, _ = _
  refine Finset.sum_congr rfl fun k _ => ?_
  rw [lift_SQ, mulf_apply]

/-- The sum over the second axis of the squared bank, at row `n`: zero plus the 128 squares of that row. -/
theorem sumSqBank (e : FVec Ideal SBank .f32) (n : Fin 1000000) :
    Host.reduceAdd (mulf e e) (constant (F := Ideal) S0 .f32 0x00000000#32) red_SBank pos_S0 (ix1 n)
      = ∑ k : Fin 128, e (ix2 n k) * e (ix2 n k) := by
  unfold Host.reduceAdd
  rw [Ideal.hostReduceAdd_def, Ideal.hostReduceAdd_single red_SBank redW_SBank, constant_apply, Ideal.ofBits_zero_f32, zero_add]
  show ∑ k : Fin 128, _ = _
  refine Finset.sum_congr rfl fun k _ => ?_
  rw [lift_SBank, mulf_apply]

/-! ## The unit rows

  The divisor of entry `(r, k)` is the column of clamped lengths spread along the row, so it is that column at
  `(r, 0)`: the larger of the square root of the row's sum of squares (the sums stood up as a column, read at `r`)
  and the clamp (a scalar spread over the column, read at its one index). -/

/-- The unit query rows, written out. -/
theorem unitRows64_def (z : FVec Ideal SQ .f32) :
    unitRows64 z = Host.divf z (broadcastInDim SQ ![0, 1] bc_col64_SQ
      (maximumf (Host.sqrt (broadcastInDim SQcol ![0] bc_rows_col64
          (Host.reduceAdd (mulf z z) (constant (F := Ideal) S0 .f32 0x00000000#32) red_SQ pos_S0)))
        (broadcastInDim SQcol ![] bc_S0_col64 (constant (F := Ideal) S0 .f32 0x322BCC77#32)))) := rfl

/-- The unit bank rows, written out. -/
theorem unitRowsBank_def (e : FVec Ideal SBank .f32) :
    unitRowsBank e = Host.divf e (broadcastInDim SBank ![0, 1] bc_colB_SBank
      (maximumf (Host.sqrt (broadcastInDim SBcol ![0] bc_rows_colB
          (Host.reduceAdd (mulf e e) (constant (F := Ideal) S0 .f32 0x00000000#32) red_SBank pos_S0)))
        (broadcastInDim SBcol ![] bc_S0_colB (constant (F := Ideal) S0 .f32 0x322BCC77#32)))) := rfl

/-- Entry `(b, k)` of the unit query rows. -/
theorem unitRows64_apply (z : FVec Ideal SQ .f32) (b : Fin 64) (k : Fin 128) :
    unitRows64 z (ix2 b k) = unitEntry z b k := by
  rw [unitRows64_def, hostDivf_apply]
  unfold unitEntry rowLen
  refine congrArg (Ideal.div (z (ix2 b k))) ?_
  refine (broadcastInDim_apply _ _ _ (ix2 b k) (ix2 b (0 : Fin 1)) ?_).trans ?_
  · intro a
    match a with
    | ⟨0, _⟩ => rfl
    | ⟨1, _⟩ => rfl
  rw [maximumf_apply, hostSqrt_apply]
  refine congrArg₂ max (congrArg Ideal.sqrt ?_) ?_
  · refine (broadcastInDim_apply _ _ _ (ix2 b (0 : Fin 1)) (ix1 b) ?_).trans ?_
    · intro a
      match a with
      | ⟨0, _⟩ => rfl
    exact sumSq64 z b
  · exact broadcastInDim_apply _ _ _ (ix2 b (0 : Fin 1)) ix0 (fun a => a.elim0)

/-- Entry `(n, k)` of the unit bank rows. -/
theorem unitRowsBank_apply (e : FVec Ideal SBank .f32) (n : Fin 1000000) (k : Fin 128) :
    unitRowsBank e (ix2 n k) = unitEntry e n k := by
  rw [unitRowsBank_def, hostDivf_apply]
  unfold unitEntry rowLen
  refine congrArg (Ideal.div (e (ix2 n k))) ?_
  refine (broadcastInDim_apply _ _ _ (ix2 n k) (ix2 n (0 : Fin 1)) ?_).trans ?_
  · intro a
    match a with
    | ⟨0, _⟩ => rfl
    | ⟨1, _⟩ => rfl
  rw [maximumf_apply, hostSqrt_apply]
  refine congrArg₂ max (congrArg Ideal.sqrt ?_) ?_
  · refine (broadcastInDim_apply _ _ _ (ix2 n (0 : Fin 1)) (ix1 n) ?_).trans ?_
    · intro a
      match a with
      | ⟨0, _⟩ => rfl
    exact sumSqBank e n
  · exact broadcastInDim_apply _ _ _ (ix2 n (0 : Fin 1)) ix0 (fun a => a.elim0)

/-! ## The scalar spread over an array -/

/-- Entry `(b, k)` of the scaled query. -/
theorem scaledQuery_apply (z : FVec Ideal SQ .f32) (w : FVec Ideal SW .f32) (b : Fin 64) (k : Fin 128) :
    scaledQuery z w (ix2 b k) = unitEntry z b k * scale w := by
  show mulf (unitRows64 z) (broadcastInDim SQ ![] bc_S0_SQ (scaleArr w)) (ix2 b k) = unitEntry z b k * scaleArr w ix0
  rw [mulf_apply, unitRows64_apply]
  exact congrArg (unitEntry z b k * ·) (broadcastInDim_apply _ _ _ (ix2 b k) ix0 (fun a => a.elim0))

/-! ## Rows against rows

  Both operands are contracted on their second axis and kept on their first: at the result index `(b, n)` and the
  contraction coordinate `k` the query is read at `(b, k)` and the bank at `(n, k)`. -/

/-- The query's row coordinate is the result's first coordinate. -/
theorem lhs_rowDot_0 (j : SOut.Idx) (q : Cert.Cosine.rowDot.contr.Idx) :
    (Cert.Cosine.rowDot.lhsIdx j q 0).val = (j 0).val := by
  unfold DotDims.lhsIdx
  rw [dif_neg (show ¬ (0 : Fin SQ.rank) ∈ Cert.Cosine.rowDot.lhsBatch from List.not_mem_nil),
    dif_pos (show (0 : Fin SQ.rank) ∈ Cert.Cosine.rowDot.lhsNonContracting from List.mem_singleton.mpr rfl)]
  rfl

/-- The query's column coordinate is the contracted one. -/
theorem lhs_rowDot_1 (j : SOut.Idx) (q : Cert.Cosine.rowDot.contr.Idx) :
    (Cert.Cosine.rowDot.lhsIdx j q 1).val = (q ⟨0, by decide⟩).val :=
  Cert.Cosine.rowDot.lhsIdx_val_of_single rfl j q

/-- The bank's row coordinate is the result's second coordinate. -/
theorem rhs_rowDot_0 (j : SOut.Idx) (q : Cert.Cosine.rowDot.contr.Idx) :
    (Cert.Cosine.rowDot.rhsIdx j q 0).val = (j 1).val := by
  unfold DotDims.rhsIdx
  rw [dif_neg (show ¬ (0 : Fin SBank.rank) ∈ Cert.Cosine.rowDot.rhsBatch from List.not_mem_nil),
    dif_pos (show (0 : Fin SBank.rank) ∈ Cert.Cosine.rowDot.rhsNonContracting from List.mem_singleton.mpr rfl)]
  rfl

/-- The bank's column coordinate is the contracted one. -/
theorem rhs_rowDot_1 (j : SOut.Idx) (q : Cert.Cosine.rowDot.contr.Idx) :
    (Cert.Cosine.rowDot.rhsIdx j q 1).val = (q ⟨0, by decide⟩).val :=
  Cert.Cosine.rowDot.rhsIdx_val_of_single rfl j q

/-- Rows against rows at `(b, n)`: the sum over the 128 columns of the products of the two rows' entries. -/
theorem rowDot_apply (A : FVec Ideal SQ .f32) (B : FVec Ideal SBank .f32) (b : Fin 64) (n : Fin 1000000) :
    Host.dotGeneral Cert.Cosine.rowDot none A B (ix2 b n) = ∑ k : Fin 128, A (ix2 b k) * B (ix2 n k) := by
  show FloatOps.dotGeneral _ none _ A B (ix2 b n) = _
  rw [Ideal.dotGeneral_apply, ← Equiv.sum_comp (contrEquiv1 Cert.Cosine.rowDot 128 rfl rfl).symm]
  refine Finset.sum_congr rfl fun k _ => ?_
  have ck := contrEquiv1_symm_val Cert.Cosine.rowDot 128 rfl rfl k
  have hl : Cert.Cosine.rowDot.lhsIdx (ix2 b n) ((contrEquiv1 Cert.Cosine.rowDot 128 rfl rfl).symm k) = ix2 b k := by
    funext a
    apply Fin.ext
    match a with
    | ⟨0, _⟩ => exact lhs_rowDot_0 _ _
    | ⟨1, _⟩ => exact (lhs_rowDot_1 _ _).trans ck
  have hr : Cert.Cosine.rowDot.rhsIdx (ix2 b n) ((contrEquiv1 Cert.Cosine.rowDot 128 rfl rfl).symm k) = ix2 n k := by
    funext a
    apply Fin.ext
    match a with
    | ⟨0, _⟩ => exact rhs_rowDot_0 _ _
    | ⟨1, _⟩ => exact (rhs_rowDot_1 _ _).trans ck
  rw [hl, hr]

/-! ## The reference's result -/

/-- The reference's result, written out. -/
theorem plainResult_def (z : FVec Ideal SQ .f32) (e : FVec Ideal SBank .f32) (w : FVec Ideal SW .f32) :
    plainResult z e w = mulf (Host.dotGeneral Cert.Cosine.rowDot none (unitRows64 z) (unitRowsBank e))
      (broadcastInDim SOut ![] bc_S0_SOut (scaleArr w)) := rfl

/-- The plain score at `(b, n)`. -/
theorem plainScore_apply (z : FVec Ideal SQ .f32) (e : FVec Ideal SBank .f32) (w : FVec Ideal SW .f32)
    (b : Fin 64) (n : Fin 1000000) :
    plainScore z e w (ix2 b n) = (∑ k : Fin 128, unitEntry z b k * unitEntry e n k) * scaleArr w ix0 := rfl

/-- The reference's whole-array term is the plain score, entry by entry. -/
theorem plainResult_eq (z : FVec Ideal SQ .f32) (e : FVec Ideal SBank .f32) (w : FVec Ideal SW .f32) :
    plainResult z e w = plainScore z e w := by
  funext j
  obtain ⟨b, n, rfl⟩ : ∃ (b : Fin 64) (n : Fin 1000000), j = ix2 b n := ⟨j 0, j 1, eq_ix2 j⟩
  rw [plainResult_def, plainScore_apply, mulf_apply, rowDot_apply]
  refine congrArg₂ (· * ·) (Finset.sum_congr rfl fun k _ => ?_) ?_
  · rw [unitRows64_apply, unitRowsBank_apply]
  · exact broadcastInDim_apply _ _ _ (ix2 b n) ix0 (fun a => a.elim0)

end Cert.Cosine

end
-- ==== Proof.ScaleReal.lean ====
/-
  The softmax-weighted sum of inverse temperatures is a real number when the weights are.
-/
import proofs.«137248_j17746804867779_1_alg».proof.Proof.Spec
import Idealize.ShloMosaic.Lib.Pipeline.Value
import Mathlib.Data.Finset.Fold
import Mathlib.Data.EReal.Operations

noncomputable section

open scoped BigOperators

namespace Cert.Cosine

open Idealize.ShloMosaic Idealize.ShloMosaic.ValueIdx

/-! ## Real numbers are closed under the arithmetic used here -/

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A real divided by a nonzero real is real: the quotient is the product with the reciprocal. -/
theorem IsReal.div_of_ne {x : EReal} (hx : IsReal x) {t : ℝ} (ht : t ≠ 0) : IsReal (Ideal.div x (t : EReal)) := by
  rw [Ideal.div_coe ht]
  exact hx.mul ⟨1 / t, rfl⟩

/-- The extended-real sum of finitely many reals is the real sum. -/
private theorem coe_sum {ι : Type*} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- A sum of positive reals over a nonempty index set is a positive real. -/
private theorem sum_pos_real {ι : Type*} (s : Finset ι) (hs : s.Nonempty) (f : ι → EReal)
    (h : ∀ i, ∃ r : ℝ, 0 < r ∧ f i = (r : EReal)) : ∃ r : ℝ, 0 < r ∧ ∑ i ∈ s, f i = (r : EReal) := by
  choose g hg0 hg using h
  refine ⟨∑ i ∈ s, g i, Finset.sum_pos (fun i _ => hg0 i) hs, ?_⟩
  rw [← coe_sum]
  exact Finset.sum_congr rfl fun i _ => hg i

/-- The maximum, started from minus infinity, of finitely many reals over a nonempty index set is real:
    it lies above one of them and below plus infinity. -/
private theorem fold_max_real {ι : Type*} (s : Finset ι) (hs : s.Nonempty) (g : ι → EReal)
    (hg : ∀ i, IsReal (g i)) : IsReal (s.fold max ⊥ g) := by
  obtain ⟨i, hi⟩ := hs
  have hlo : ⊥ < s.fold max ⊥ g := by
    obtain ⟨a, ha⟩ := hg i
    exact (Finset.lt_fold_max _).mpr (Or.inr ⟨i, hi, by rw [ha]; exact EReal.bot_lt_coe a⟩)
  have hhi : s.fold max ⊥ g < ⊤ := by
    refine (Finset.fold_max_lt _).mpr ⟨bot_lt_top, fun k _ => ?_⟩
    obtain ⟨a, ha⟩ := hg k
    rw [ha]; exact EReal.coe_lt_top a
  exact ⟨(s.fold max ⊥ g).toReal, (EReal.coe_toReal hhi.ne hlo.ne').symm⟩

/-! ## The constants -/

/-- The lower clamp is a positive real number. -/
theorem eps_pos : ∃ r : ℝ, 0 < r ∧ eps = (r : EReal) := by
  refine ⟨(11258999 : ℝ) * (2 : ℝ) ^ (-50 : Int), by positivity, ?_⟩
  show Ideal.ofBits .f32 0x322BCC77#32 = _
  simp [Ideal.ofBits, Ideal.ieee, -EReal.coe_mul]

/-- The word of minus infinity denotes the bottom of the extended reals. -/
private theorem ofBits_neg_inf : Ideal.ofBits .f32 0xFF800000#32 = ⊥ := by
  simp [Ideal.ofBits, Ideal.ieee]

/-- Each of the three temperatures is a nonzero real number. -/
private theorem temp_real (n : Fin 3) : ∃ t : ℝ, t ≠ 0 ∧ Ideal.ofBits .f32 (tempWord n) = (t : EReal) := by
  fin_cases n
  · refine ⟨(9395241 : ℝ) * (2 : ℝ) ^ (-27 : Int), by positivity, ?_⟩
    show Ideal.ofBits .f32 0x3D8F5C29#32 = _
    simp [Ideal.ofBits, Ideal.ieee, -EReal.coe_mul]
  · refine ⟨(13421773 : ℝ) * (2 : ℝ) ^ (-27 : Int), by positivity, ?_⟩
    show Ideal.ofBits .f32 0x3DCCCCCD#32 = _
    simp [Ideal.ofBits, Ideal.ieee, -EReal.coe_mul]
  · refine ⟨(13421773 : ℝ) * (2 : ℝ) ^ (-26 : Int), by positivity, ?_⟩
    show Ideal.ofBits .f32 0x3E4CCCCD#32 = _
    simp [Ideal.ofBits, Ideal.ieee, -EReal.coe_mul]

/-! ## The stages of the chain -/

/-- A scalar spread over the three weights reads, at every index, the scalar. -/
private theorem spread_apply (x : FVec Ideal S0 .f32) (i : SW.Idx) :
    broadcastInDim SW ![0] bc_S1u_SW (broadcastInDim S1u ![] bc_S0_S1u x) i = x ix0 :=
  congrArg x (eq_ix0 _)

/-- The three-vector's index set is inhabited. -/
private theorem univ_SW_nonempty : (Finset.univ : Finset SW.Idx).Nonempty :=
  ⟨ix1 (0 : Fin 3), Finset.mem_univ _⟩

/-- The host's sum of the three entries, from the zero word, is the sum of the entries. -/
private theorem sum3_apply (x : FVec Ideal SW .f32) (j : S0.Idx) :
    Host.reduceAdd x (constant (F := Ideal) S0 .f32 0x00000000#32) red_SW pos_S0 j = ∑ i : SW.Idx, x i := by
  show Ideal.hostReduceAdd red_SW x (Ideal.ofBits .f32 0x00000000#32) j = _
  rw [Ideal.hostReduceAdd_total red_SW (fun b => b.elim0) x _ j, Ideal.ofBits_zero_f32, zero_add]

/-- The maximum of three real weights, taken from minus infinity, is real: the reduction into the one-element result
    is the maximum over every index of the weights, and there is at least one. -/
private theorem top_real (w : FVec Ideal SW .f32) (hw : ∀ i, IsReal (w i)) (j : S0.Idx) :
    IsReal (maximumf (constant (F := Ideal) S0 .f32 0xFF800000#32)
      (Host.reduce (FloatOps.maximumf : Ideal .f32 → Ideal .f32 → Ideal .f32) w
        (constant (F := Ideal) S0 .f32 0xFF800000#32) red_SW pos_S0) j) := by
  show IsReal (max (Ideal.ofBits .f32 0xFF800000#32)
    (Host.reduce (FloatOps.maximumf : Ideal .f32 → Ideal .f32 → Ideal .f32) w
      (constant (F := Ideal) S0 .f32 0xFF800000#32) red_SW pos_S0 j))
  rw [Host.reduce_eq_fold (FloatOps.maximumf : Ideal .f32 → Ideal .f32 → Ideal .f32) w _ red_SW pos_S0 j]
  show IsReal (max (Ideal.ofBits .f32 0xFF800000#32)
    ((Finset.univ.filter fun i => red_SW.drop i = j).fold max (Ideal.ofBits .f32 0xFF800000#32) w))
  rw [ofBits_neg_inf, max_bot_left]
  refine fold_max_real _ ⟨ix1 (0 : Fin 3), ?_⟩ _ hw
  exact Finset.mem_filter.mpr ⟨Finset.mem_univ _, (eq_ix0 _).trans (eq_ix0 j).symm⟩

/-- With real weights the scalar is a real number: the maximum of three reals is real, the exponentials are positive
    reals, so is their sum, the quotients by it and by the (nonzero) temperatures are real, and so is their sum. -/
theorem scale_real (w : FVec Ideal SW .f32) (hw : ∀ i, IsReal (w i)) : IsReal (scale w) := by
  let top : FVec Ideal S0 .f32 :=
    maximumf (constant (F := Ideal) S0 .f32 0xFF800000#32)
      (Host.reduce FloatOps.maximumf w (constant (F := Ideal) S0 .f32 0xFF800000#32) red_SW pos_S0)
  let ex : FVec Ideal SW .f32 := Host.exp (subf w (broadcastInDim SW ![0] bc_S1u_SW (broadcastInDim S1u ![] bc_S0_S1u top)))
  let tot : FVec Ideal S0 .f32 := Host.reduceAdd ex (constant (F := Ideal) S0 .f32 0x00000000#32) red_SW pos_S0
  let prob : FVec Ideal SW .f32 := Host.divf ex (broadcastInDim SW ![0] bc_S1u_SW (broadcastInDim S1u ![] bc_S0_S1u tot))
  show IsReal (Host.reduceAdd (Host.divf prob temps) (constant (F := Ideal) S0 .f32 0x00000000#32) red_SW pos_S0 ix0)
  -- the maximum is a real number m
  obtain ⟨m, hm⟩ : IsReal (top ix0) := top_real w hw ix0
  -- every exponential is a positive real
  have hex : ∀ i, ∃ r : ℝ, 0 < r ∧ ex i = (r : EReal) := by
    intro i
    obtain ⟨a, ha⟩ := hw i
    refine ⟨Real.exp (a - m), Real.exp_pos _, ?_⟩
    show Ideal.exp (w i - broadcastInDim SW ![0] bc_S1u_SW (broadcastInDim S1u ![] bc_S0_S1u top) i) = _
    rw [spread_apply, hm, ha, ← EReal.coe_sub, Ideal.exp_coe]
  -- so is their sum
  obtain ⟨T, hT0, hT⟩ : ∃ r : ℝ, 0 < r ∧ tot ix0 = (r : EReal) := by
    show ∃ r : ℝ, 0 < r ∧ Host.reduceAdd ex (constant (F := Ideal) S0 .f32 0x00000000#32) red_SW pos_S0 ix0 = (r : EReal)
    rw [sum3_apply]
    exact sum_pos_real _ univ_SW_nonempty _ hex
  -- each probability over its temperature is real
  have hterm : ∀ i, IsReal (Host.divf prob temps i) := by
    intro i
    obtain ⟨r, _, hr⟩ := hex i
    obtain ⟨t, ht0, ht⟩ := temp_real (SW.rowMajor i)
    show IsReal (Ideal.div (Ideal.div (ex i) (broadcastInDim SW ![0] bc_S1u_SW (broadcastInDim S1u ![] bc_S0_S1u tot) i))
      (Ideal.ofBits .f32 (tempWord (SW.rowMajor i))))
    rw [spread_apply, hT, ht]
    exact (IsReal.div_of_ne ⟨r, hr⟩ hT0.ne').div_of_ne ht0
  rw [sum3_apply]
  exact IsReal.sum _ _ fun i _ => hterm i

end Cert.Cosine

end
-- ==== Proof.Algebra.lean ====
/-
  The two arrangements of the scaled inner product agree on honest reals.
-/
import proofs.«137248_j17746804867779_1_alg».proof.Proof.Spec
import proofs.«137248_j17746804867779_1_alg».proof.Proof.ScaleReal

noncomputable section

open scoped BigOperators

namespace Cert.Cosine

open Idealize.ShloMosaic Idealize.ShloMosaic.ValueIdx

/-- The coercion of a finite sum of reals is the sum of the coercions: no infinity occurs among the terms, so the
    extended sum is the real one, one term at a time. -/
private theorem coe_real_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the two coercions: the coercion is monotone. -/
private theorem coe_real_max (a b : ℝ) : ((max a b : ℝ) : EReal) = max (a : EReal) (b : EReal) :=
  EReal.coe_strictMono.monotone.map_max

/-- A real row divided by its clamped length is real: the sum of squares is a nonnegative real, its root a real,
    the maximum with the positive clamp a positive real. -/
theorem unitEntry_real {n : ℕ} (x : (⟨2, ![n, 128]⟩ : Shape).Idx → EReal) (hx : ∀ i, IsReal (x i)) (r : Fin n) (k : Fin 128) :
    IsReal (unitEntry x r k) := by
  choose f hf using hx
  obtain ⟨c, hc, hceps⟩ := eps_pos
  -- the sum of squares of the row is the coercion of the real sum of squares
  have hsum : (∑ m : Fin 128, x (ix2 r m) * x (ix2 r m))
      = ((∑ m : Fin 128, f (ix2 r m) * f (ix2 r m) : ℝ) : EReal) := by
    rw [coe_real_sum]
    refine Finset.sum_congr rfl fun m _ => ?_
    rw [hf, EReal.coe_mul]
  -- a sum of squares is not negative
  have hnn : 0 ≤ ∑ m : Fin 128, f (ix2 r m) * f (ix2 r m) :=
    Finset.sum_nonneg fun m _ => mul_self_nonneg _
  -- so the clamped length is the coercion of a real maximum, and that maximum is at least the positive clamp
  have hlen : rowLen x r = ((max (Real.sqrt (∑ m : Fin 128, f (ix2 r m) * f (ix2 r m))) c : ℝ) : EReal) := by
    unfold rowLen
    rw [hsum, Ideal.sqrt_coe, if_neg (not_lt.mpr hnn), hceps, coe_real_max]
  have hpos : 0 < max (Real.sqrt (∑ m : Fin 128, f (ix2 r m) * f (ix2 r m))) c := lt_max_of_lt_right hc
  -- dividing by a nonzero real is multiplying by its real reciprocal
  unfold unitEntry
  rw [hlen, Ideal.div_coe hpos.ne', hf, ← EReal.coe_mul]
  exact ⟨_, rfl⟩

/-- When every entry of the query, of the bank and of the weights is a real number, multiplying the scalar into
    the query row before the inner product or into the inner product afterwards gives the same extended real. -/
theorem fused_eq_plain (z : FVec Ideal SQ .f32) (e : FVec Ideal SBank .f32) (w : FVec Ideal SW .f32)
    (hz : ∀ i, IsReal (z i)) (he : ∀ i, IsReal (e i)) (hw : ∀ i, IsReal (w i)) :
    fusedScore z e w = plainScore z e w := by
  funext j
  -- real witnesses for the unit query row, the unit bank row and the scalar
  have hA : ∀ m : Fin 128, IsReal (unitEntry z (j 0) m) := fun m => unitEntry_real z hz (j 0) m
  have hB : ∀ m : Fin 128, IsReal (unitEntry e (j 1) m) := fun m => unitEntry_real e he (j 1) m
  choose a ha using hA
  choose b hb using hB
  obtain ⟨s, hs⟩ := scale_real w hw
  -- each side is the coercion of a real sum
  have hl : (∑ m : Fin 128, (unitEntry z (j 0) m * scale w) * unitEntry e (j 1) m)
      = ((∑ m : Fin 128, (a m * s) * b m : ℝ) : EReal) := by
    rw [coe_real_sum]
    refine Finset.sum_congr rfl fun m _ => ?_
    rw [ha, hb, hs, EReal.coe_mul, EReal.coe_mul]
  have hr : (∑ m : Fin 128, unitEntry z (j 0) m * unitEntry e (j 1) m)
      = ((∑ m : Fin 128, a m * b m : ℝ) : EReal) := by
    rw [coe_real_sum]
    refine Finset.sum_congr rfl fun m _ => ?_
    rw [ha, hb, EReal.coe_mul]
  show (∑ m : Fin 128, (unitEntry z (j 0) m * scale w) * unitEntry e (j 1) m)
      = (∑ m : Fin 128, unitEntry z (j 0) m * unitEntry e (j 1) m) * scale w
  rw [hl, hr, hs, ← EReal.coe_mul]
  -- in the reals the scalar comes out of the sum
  congr 1
  rw [Finset.sum_mul]
  refine Finset.sum_congr rfl fun m _ => ?_
  ring

end Cert.Cosine

end
-- ==== Proof.Finite.lean ====
/-
  The precondition read: every entry of the three argument arrays is a real number.
-/
import proofs.«137248_j17746804867779_1_alg».proof.Defs
import proofs.«137248_j17746804867779_1_alg».proof.Proof.Gen.KernelIdeal
import proofs.«137248_j17746804867779_1_alg».proof.Proof.Gen.Pre_finite_inputs
import proofs.«137248_j17746804867779_1_alg».proof.Proof.Spec
import Idealize.ShloMosaic.Lib.ReduceAll

set_option maxRecDepth 16384

noncomputable section

open scoped BigOperators

namespace Cert.KernelIdeal.Hand

open Cert.KernelIdeal
open Idealize.ShloMosaic Idealize.SL.Sem

/-- The float word of plus infinity denotes the top element of the extended reals. -/
private theorem inf_word_eq_top : (Ideal.ofBits .f32 0x7F800000#32 : EReal) = ⊤ := by
  simp [Ideal.ofBits, Ideal.ieee]

/-- An extended real whose absolute value (the larger of itself and its negation) lies strictly below the top
    element is a real number: the two infinities both have absolute value top. -/
private theorem isReal_of_abs_lt_top (x : EReal) (hx : max x (-x) < ⊤) : Cert.Cosine.IsReal x := by
  induction x using EReal.rec with
  | bot => simp at hx
  | coe r => exact ⟨r, rfl⟩
  | top => simp at hx

/-- The same, from the comparison word: "absolute value less than plus infinity" came out true. -/
private theorem isReal_of_cmp (x : EReal)
    (hx : Ideal.cmp .olt (max x (-x)) (Ideal.ofBits .f32 0x7F800000#32) = 1#1) : Cert.Cosine.IsReal x := by
  rw [inf_word_eq_top] at hx
  refine isReal_of_abs_lt_top x ?_
  by_contra hlt
  simp [Ideal.cmp, hlt] at hx

/-- The rank-0 shape has a single index. -/
private instance subsingleton_S_ : Subsingleton Cert.Pre_finite_inputs.S_.Idx :=
  ⟨fun a b => funext fun d => d.elim0⟩

/-- Under the precondition every entry of the query, the bank and the weights is a real number. -/
theorem real_of_pre (m : (ℓ : Loc nD τ sig) → Buf (Elt Ideal) ℓ) (h : Cert.Pre_KernelIdeal m) (c : Dev nD) :
    (∀ i, Cert.Cosine.IsReal ((m ((c.tc : Thread nD τ).loc main_arg0) : S64x128.Idx → EReal) i))
    ∧ (∀ i, Cert.Cosine.IsReal ((m ((c.tc : Thread nD τ).loc main_arg1) : S1000000x128.Idx → EReal) i))
    ∧ (∀ i, Cert.Cosine.IsReal ((m ((c.tc : Thread nD τ).loc main_arg2) : S3.Idx → EReal) i)) := by
  have h0 := congrFun (h c) ValueIdx.ix0
  dsimp only [Cert.Pre_finite_inputs.fn, Idealize.ShloMosaic.andi] at h0
  obtain ⟨h01, h2⟩ := IntOp.andi_eq_one.1 h0
  obtain ⟨h00, h1⟩ := IntOp.andi_eq_one.1 h01
  refine ⟨fun i => ?_, fun i => ?_, fun i => ?_⟩
  · exact isReal_of_cmp _ (Host.reduce_andi_all _ _ _ _ _ h00 i)
  · exact isReal_of_cmp _ (Host.reduce_andi_all _ _ _ _ _ h1 i)
  · exact isReal_of_cmp _ (Host.reduce_andi_all _ _ _ _ _ h2 i)

end Cert.KernelIdeal.Hand

end
-- ==== Proof.RefRun.lean ====
/-
  The reference's run: every weakly fair execution ends with the result buffer at the reference's whole-array term.
-/
import proofs.«137248_j17746804867779_1_alg».proof.ReferenceIdeal
import proofs.«137248_j17746804867779_1_alg».proof.Proof.Gen.ReferenceIdeal
import proofs.«137248_j17746804867779_1_alg».proof.Proof.Spec
import Idealize.ShloMosaic.Lib.StableHlo.Run

set_option maxRecDepth 16384

noncomputable section

open scoped BigOperators

namespace Cert.ReferenceIdeal.HandRun

open Cert.ReferenceIdeal
open Idealize.ShloMosaic Idealize.SL.Sem

section Line

open Cert.ReferenceIdeal.Facts₀ Idealize.ShloMosaic.TcCoe Idealize.ShloMosaic.StableHlo

variable {F : FTy → Type} [FloatOps F]

/-- The program as one straight line: the temperatures' table; the query's row lengths (squares, zero, row sums,
    the column, square roots), the clamp and the division; the same for the bank; the inner products of rows
    against rows; then the scalar (the weights' maximum from minus infinity, the shifted exponentials, their sum,
    the quotients, each over its temperature, the sum of those), spread over the result's shape and multiplied in. -/
abbrev ops : List (HloOp τ sig (Elt F)) :=
  [ nullary main_cst (fun i => FloatOps.ofBits .f32 (lit0 (S3.rowMajor i))),
    binary main_arg0 main_arg0 main_call0_v0 (mulf : (⟨S64x128, .f32⟩ : BufTy).Contents (Elt F) → (⟨S64x128, .f32⟩ : BufTy).Contents (Elt F) → (⟨S64x128, .f32⟩ : BufTy).Contents (Elt F)),
    nullary main_call0_cst (constant S_ .f32 0x00000000#32),
    binary main_call0_v0 main_call0_cst main_call0_v1 ((fun x v => Host.reduceAdd x v reducesTo_S64x128_S64_d1 h_S_) : (⟨S64x128, .f32⟩ : BufTy).Contents (Elt F) → (⟨S_, .f32⟩ : BufTy).Contents (Elt F) → (⟨S64, .f32⟩ : BufTy).Contents (Elt F)),
    unary main_call0_v1 main_call0_v2 (broadcastInDim S64x1 ![0] bcast_S64_S64x1_0 : (⟨S64, .f32⟩ : BufTy).Contents (Elt F) → (⟨S64x1, .f32⟩ : BufTy).Contents (Elt F)),
    unary main_call0_v2 main_v0 (Host.sqrt : (⟨S64x1, .f32⟩ : BufTy).Contents (Elt F) → (⟨S64x1, .f32⟩ : BufTy).Contents (Elt F)),
    nullary main_cst_0 (constant S_ .f32 0x322BCC77#32),
    unary main_cst_0 main_v1 (broadcastInDim S64x1 ![] bcast_S_S64x1 : (⟨S_, .f32⟩ : BufTy).Contents (Elt F) → (⟨S64x1, .f32⟩ : BufTy).Contents (Elt F)),
    binary main_v0 main_v1 main_v2 (maximumf : (⟨S64x1, .f32⟩ : BufTy).Contents (Elt F) → (⟨S64x1, .f32⟩ : BufTy).Contents (Elt F) → (⟨S64x1, .f32⟩ : BufTy).Contents (Elt F)),
    unary main_v2 main_v3 (broadcastInDim S64x128 ![0, 1] bcast_S64x1_S64x128_0_1 : (⟨S64x1, .f32⟩ : BufTy).Contents (Elt F) → (⟨S64x128, .f32⟩ : BufTy).Contents (Elt F)),
    binary main_arg0 main_v3 main_v4 (Host.divf : (⟨S64x128, .f32⟩ : BufTy).Contents (Elt F) → (⟨S64x128, .f32⟩ : BufTy).Contents (Elt F) → (⟨S64x128, .f32⟩ : BufTy).Contents (Elt F)),
    binary main_arg1 main_arg1 main_call1_v0 (mulf : (⟨S1000000x128, .f32⟩ : BufTy).Contents (Elt F) → (⟨S1000000x128, .f32⟩ : BufTy).Contents (Elt F) → (⟨S1000000x128, .f32⟩ : BufTy).Contents (Elt F)),
    nullary main_call1_cst (constant S_ .f32 0x00000000#32),
    binary main_call1_v0 main_call1_cst main_call1_v1 ((fun x v => Host.reduceAdd x v reducesTo_S1000000x128_S1000000_d1 h_S_) : (⟨S1000000x128, .f32⟩ : BufTy).Contents (Elt F) → (⟨S_, .f32⟩ : BufTy).Contents (Elt F) → (⟨S1000000, .f32⟩ : BufTy).Contents (Elt F)),
    unary main_call1_v1 main_call1_v2 (broadcastInDim S1000000x1 ![0] bcast_S1000000_S1000000x1_0 : (⟨S1000000, .f32⟩ : BufTy).Contents (Elt F) → (⟨S1000000x1, .f32⟩ : BufTy).Contents (Elt F)),
    unary main_call1_v2 main_v5 (Host.sqrt : (⟨S1000000x1, .f32⟩ : BufTy).Contents (Elt F) → (⟨S1000000x1, .f32⟩ : BufTy).Contents (Elt F)),
    nullary main_cst_1 (constant S_ .f32 0x322BCC77#32),
    unary main_cst_1 main_v6 (broadcastInDim S1000000x1 ![] bcast_S_S1000000x1 : (⟨S_, .f32⟩ : BufTy).Contents (Elt F) → (⟨S1000000x1, .f32⟩ : BufTy).Contents (Elt F)),
    binary main_v5 main_v6 main_v7 (maximumf : (⟨S1000000x1, .f32⟩ : BufTy).Contents (Elt F) → (⟨S1000000x1, .f32⟩ : BufTy).Contents (Elt F) → (⟨S1000000x1, .f32⟩ : BufTy).Contents (Elt F)),
    unary main_v7 main_v8 (broadcastInDim S1000000x128 ![0, 1] bcast_S1000000x1_S1000000x128_0_1 : (⟨S1000000x1, .f32⟩ : BufTy).Contents (Elt F) → (⟨S1000000x128, .f32⟩ : BufTy).Contents (Elt F)),
    binary main_arg1 main_v8 main_v9 (Host.divf : (⟨S1000000x128, .f32⟩ : BufTy).Contents (Elt F) → (⟨S1000000x128, .f32⟩ : BufTy).Contents (Elt F) → (⟨S1000000x128, .f32⟩ : BufTy).Contents (Elt F)),
    binary main_v4 main_v9 main_v10 ((fun l r => Host.dotGeneral dot_S64x128_S1000000x128_S64x1000000_1_1_0_0_n_n none l r) : (⟨S64x128, .f32⟩ : BufTy).Contents (Elt F) → (⟨S1000000x128, .f32⟩ : BufTy).Contents (Elt F) → (⟨S64x1000000, .f32⟩ : BufTy).Contents (Elt F)),
    nullary main_cst_2 (constant S_ .f32 0xFF800000#32),
    binary main_arg2 main_cst_2 main_v11 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_3 (constant S_ .f32 0xFF800000#32),
    binary main_cst_3 main_v11 main_v12 (maximumf : (⟨S_, .f32⟩ : BufTy).Contents (Elt F) → (⟨S_, .f32⟩ : BufTy).Contents (Elt F) → (⟨S_, .f32⟩ : BufTy).Contents (Elt F)),
    unary main_v12 main_v13 (broadcastInDim S1 ![] bcast_S_S1 : (⟨S_, .f32⟩ : BufTy).Contents (Elt F) → (⟨S1, .f32⟩ : BufTy).Contents (Elt F)),
    unary main_v13 main_v14 (broadcastInDim S3 ![0] bcast_S1_S3_0 : (⟨S1, .f32⟩ : BufTy).Contents (Elt F) → (⟨S3, .f32⟩ : BufTy).Contents (Elt F)),
    binary main_arg2 main_v14 main_v15 (subf : (⟨S3, .f32⟩ : BufTy).Contents (Elt F) → (⟨S3, .f32⟩ : BufTy).Contents (Elt F) → (⟨S3, .f32⟩ : BufTy).Contents (Elt F)),
    unary main_v15 main_v16 (Host.exp : (⟨S3, .f32⟩ : BufTy).Contents (Elt F) → (⟨S3, .f32⟩ : BufTy).Contents (Elt F)),
    nullary main_cst_4 (constant S_ .f32 0x00000000#32),
    binary main_v16 main_cst_4 main_v17 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v17 main_v18 (broadcastInDim S1 ![] bcast_S_S1 : (⟨S_, .f32⟩ : BufTy).Contents (Elt F) → (⟨S1, .f32⟩ : BufTy).Contents (Elt F)),
    unary main_v18 main_v19 (broadcastInDim S3 ![0] bcast_S1_S3_0 : (⟨S1, .f32⟩ : BufTy).Contents (Elt F) → (⟨S3, .f32⟩ : BufTy).Contents (Elt F)),
    binary main_v16 main_v19 main_v20 (Host.divf : (⟨S3, .f32⟩ : BufTy).Contents (Elt F) → (⟨S3, .f32⟩ : BufTy).Contents (Elt F) → (⟨S3, .f32⟩ : BufTy).Contents (Elt F)),
    binary main_v20 main_cst main_v21 (Host.divf : (⟨S3, .f32⟩ : BufTy).Contents (Elt F) → (⟨S3, .f32⟩ : BufTy).Contents (Elt F) → (⟨S3, .f32⟩ : BufTy).Contents (Elt F)),
    nullary main_cst_5 (constant S_ .f32 0x00000000#32),
    binary main_v21 main_cst_5 main_v22 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v22 main_v23 (broadcastInDim S64x1000000 ![] bcast_S_S64x1000000 : (⟨S_, .f32⟩ : BufTy).Contents (Elt F) → (⟨S64x1000000, .f32⟩ : BufTy).Contents (Elt F)),
    binary main_v10 main_v23 main_v24 (mulf : (⟨S64x1000000, .f32⟩ : BufTy).Contents (Elt F) → (⟨S64x1000000, .f32⟩ : BufTy).Contents (Elt F) → (⟨S64x1000000, .f32⟩ : BufTy).Contents (Elt F)) ]

set_option maxRecDepth 1024 in
/-- The program is that line: the two row-length functions opened at their calls, the sequencing
    reassociated; a typed reference's transport is the identity at a literal reference. -/
theorem main_eq (c : Dev nD) : main (F := F) c = seq ops := by
  simp only [main, fn_norm.body, fn_norm_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    binary_bufs_sub .., nullary_bufs_sub .., binary_bufs_sub .., unary_bufs_sub .., unary_bufs_sub ..,
    nullary_bufs_sub .., unary_bufs_sub .., binary_bufs_sub .., unary_bufs_sub .., binary_bufs_sub ..,
    binary_bufs_sub .., nullary_bufs_sub .., binary_bufs_sub .., unary_bufs_sub .., unary_bufs_sub ..,
    nullary_bufs_sub .., unary_bufs_sub .., binary_bufs_sub .., unary_bufs_sub .., binary_bufs_sub ..,
    binary_bufs_sub ..,
    nullary_bufs_sub .., binary_bufs_sub .., nullary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., nullary_bufs_sub .., binary_bufs_sub .., unary_bufs_sub .., binary_bufs_sub ..⟩

end Line

section Value

open Idealize.ShloMosaic.TcCoe Idealize.ShloMosaic.StableHlo

/-- What the line leaves in the result buffer: read operation by operation it is the quotient of the query by its
    clamped row lengths contracted against the same quotient of the bank, times the scalar spread over the result's
    shape — the specification's term, operation for operation (the shape facts are propositions, the two contraction
    records have the same fields, the two temperature tables the same words). -/
theorem result_eq (V : Valuation τ sig (Elt Ideal)) :
    after (ops (F := Ideal)) V (main_v24 : DevRef τ sig)
      = Cert.Cosine.plainResult (V (main_arg0 : DevRef τ sig)) (V (main_arg1 : DevRef τ sig)) (V (main_arg2 : DevRef τ sig)) := by
  after_results_simp
  generalize V (main_arg0 : DevRef τ sig) = z
  generalize V (main_arg1 : DevRef τ sig) = e
  generalize V (main_arg2 : DevRef τ sig) = w
  rfl

/-- No operation of the line writes an argument. -/
theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

end Value

/-- The reference run: it terminates without a fault, the result buffer ends at `plainResult` of the argument
    arrays, and the arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24)
          = Cert.Cosine.plainResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c main_v24).trans (result_eq _), (h c main_arg0).trans (arg0_eq _),
      (h c main_arg1).trans (arg1_eq _), (h c main_arg2).trans (arg2_eq _)⟩)
    (StableHlo.run_seq scopedRefs_eq scopedSems_eq defs main (fun _ => ops) main_eq (fun _ => ops_sub) m ρ)

end Cert.ReferenceIdeal.HandRun

end
-- ==== Proof.Data.lean ====
/-
  What the staging buffers of the idealized kernel hold after the body at each grid point.

  The grid has 123 points. At point `t` the kernel reads the whole query (64 by 128, the same block at every
  point) and rows `8192 t ‥ 8192 t + 8191` of the bank, and writes columns `8192 t ‥ 8192 t + 8191` of the result.
  The bank has a million rows, so the last block holds only 576 rows of the bank; the rest of that staging buffer
  holds words nothing names. The proof data therefore state the bank's buffer and the result's buffer only on the
  part inside the arrays: the bank's rows of the block filled out with zeros (`bankBlock`), and what the body
  computes from that and the query (`outBlock`).
-/
import proofs.«137248_j17746804867779_1_alg».proof.Proof.Gen.KernelIdeal.Frame
import proofs.«137248_j17746804867779_1_alg».proof.Proof.Gen.KernelIdeal.Skeleton
import Idealize.ShloMosaic.Lib.Pipeline.Kit

set_option maxRecDepth 16384

noncomputable section

open scoped BigOperators

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The rows of the bank that point `t` fetches and that lie inside the bank. -/
def bankPart (c : Dev nD) (t : Fin cfg0.N) : (win0_1.xblock (grid0.coords t)).Idx → Elt F .f32 :=
  Gen.iblk m c 1 t

/-- Those rows as a full block of 8192 rows: zeros below the bank's end. -/
def bankBlock (c : Dev nD) (t : Fin cfg0.N) : S8192x128.Idx → Elt F .f32 :=
  win0_1.fill (grid0.coords t) (fun _ => Scalar.ofBits .f32 0#32) (bankPart m c t)

/-- The query as the region finds it (one block, the whole array). -/
def queryBlock (c : Dev nD) (t : Fin cfg0.N) : S64x128.Idx → Elt F .f32 :=
  Gen.iblk m c 0 t

/-- What the body computes at point `t` from the query and the bank's block. -/
def outBlock (c : Dev nD) (t : Fin cfg0.N) : S64x8192.Idx → Elt F .f32 :=
  Gen.k0_pay1 (bankBlock m c t) (queryBlock m c t)

/-- The proof data: the arrays as the region finds them; after the body the query's buffer at the query, the
    bank's at its block, the result's at what the body computed; the class invariant; full shares. -/
def dats (_ : Fin 1) (c : Dev nD) : Dat τ (Elt F) Unit ℕ (UR sig nD τ) ℕ cfg0 c where
  A w := Gen.V m c (Pipeline.arrRef spec0 w)
  after w t := match w with
    | ⟨0, _⟩ => queryBlock m c t
    | ⟨1, _⟩ => bankBlock m c t
    | ⟨2, _⟩ => outBlock m c t
  Φ _ := Pipeline.ΦA spec0 c
  q _ := fullShare
  owed _ := 0

end Cert.KernelIdeal.Hand

end
-- ==== Proof.LibColumns.lean ====
/-
  Column forms of the layout operations, and a row sum, read at an index.

  A sum along the second axis of an `[a, b]` array that keeps the axis gives an `[a, 1]` column; taking it off the
  array again broadcasts the column back to `[a, b]`. Here: the cast `[a] → [a, 1]` reads entry `p` at `(p, u)`
  whatever the unit coordinate `u`; the broadcast `[a, 1] → [a, b]` reads the column's entry `(p, 0)` at every
  `(p, c)`; and a lane sum of an `[n, b]` array over its second axis is, at row `r`, the sum over `k` of the
  entries `(r, k)`. All for arbitrary extents.
-/
import Idealize.ShloMosaic.Lib.ValueIdx
import Idealize.ShloMosaic.Lib.Pipeline.Value
import Idealize.ShloMosaic.PureOps.Ideal.Laws

noncomputable section

open scoped BigOperators

namespace Cert.Columns

open Idealize.ShloMosaic Idealize.ShloMosaic.ValueIdx

variable {α : Type}

/-- An `[a]` array cast to the column `[a, 1]` reads, at `(p, u)`, the operand at `p`: the row-major position of
    `(p, u)` in `[a, 1]` is `p · 1 + u` with `u = 0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum over the second axis of an `[n, b]` array of extended reals, from the zero word, is at row `r` the sum
    of that row's entries. -/
theorem rowSum_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end Cert.Columns

end
-- ==== Proof.KernelPayload.lean ====
/-
  The kernel body's arithmetic at one entry of the output block.
-/
import proofs.«137248_j17746804867779_1_alg».proof.Proof.Gen.KernelIdeal.Skeleton
import proofs.«137248_j17746804867779_1_alg».proof.Proof.Spec
import proofs.«137248_j17746804867779_1_alg».proof.Proof.LibColumns
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! ## Which operand entries the contraction reads

The block product contracts the second axis of both operands: at output entry `i` and contraction position `q`
the left operand is read at row `i 0`, the right operand at row `i 1`, both at column `q`. One statement per axis. -/

/-- The left operand's row is the output's row. -/
theorem lhs_axis0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide),
    dif_pos (show (0 : Fin S64x128.rank) ∈ dot_S64x128_S8192x128_S64x8192_1_1_0_0_n_n.lhsNonContracting by decide)]
  rfl

/-- The left operand's column is the contraction position. -/
theorem lhs_axis1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q

/-- The right operand's row is the output's column. -/
theorem rhs_axis0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide),
    dif_pos (show (0 : Fin S8192x128.rank) ∈ dot_S64x128_S8192x128_S64x8192_1_1_0_0_n_n.rhsNonContracting by decide)]
  rfl

/-- The right operand's column is the contraction position. -/
theorem rhs_axis1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- The block product with a zero accumulator, at entry `(b, n)`: the inner product of row `b` of the left operand
    with row `n` of the right one. -/
theorem rowsDot_apply {φ₁ φ₂ : FTy} (x : FVec Ideal S64x128 φ₁) (y : FVec Ideal S8192x128 φ₂) (b : Fin 64) (n : Fin 8192) :
    matmul dot_S64x128_S8192x128_S64x8192_1_1_0_0_n_n none x y (constant (F := Ideal) S64x8192 .f32 0x00000000#32) (ix2 b n)
      = ∑ k : Fin 128, x (ix2 b k) * y (ix2 n k) := by
  refine (Ideal.matmul_constant_zero_apply dot_S64x128_S8192x128_S64x8192_1_1_0_0_n_n none x y (ix2 b n)).trans ?_
  rw [← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 b n)
      ((contrEquiv1 dot_S64x128_S8192x128_S64x8192_1_1_0_0_n_n 128 rfl rfl).symm k) = ix2 b k := funext fun a => Fin.ext (by
    match a with
    | ⟨0, _⟩ => exact lhs_axis0 _ _
    | ⟨1, _⟩ => exact (lhs_axis1 _ _).trans hk)
  have er : dot_S64x128_S8192x128_S64x8192_1_1_0_0_n_n.rhsIdx (ix2 b n)
      ((contrEquiv1 dot_S64x128_S8192x128_S64x8192_1_1_0_0_n_n 128 rfl rfl).symm k) = ix2 n k := funext fun a => Fin.ext (by
    match a with
    | ⟨0, _⟩ => exact rhs_axis0 _ _
    | ⟨1, _⟩ => exact (rhs_axis1 _ _).trans hk)
  rw [el, er]

/-- Entry `(n, k)` of the bank block after every row is divided by its clamped length. -/
theorem unitBlock_apply (v0 : Vec Ideal S8192x128 .f32) (n : Fin 8192) (k : Fin 128) :
    divf v0 (broadcastTo S8192x128
      (maximumf (sqrt (shapeCast S8192x1 (multiReduction .add [1] S8192 (mulf v0 v0) 0x00000000#32 reduces_S8192x128_S8192 (.inl rfl) rfl)
          shapeCasts_S8192_S8192x1))
        (broadcast S8192x1 (Scalar.ofBits (F := Ideal) .f32 0x322BCC77#32)))
      broadcasts_S8192x1_S8192x128) (ix2 n k) = Cert.Cosine.unitEntry v0 n k := by
  unfold Cert.Cosine.unitEntry Cert.Cosine.rowLen Cert.Cosine.eps
  rw [divf_apply]
  refine congrArg (Ideal.div (v0 (ix2 n k))) ?_
  refine (Cert.Columns.broadcastTo_a1_ab_apply _ broadcasts_S8192x1_S8192x128 n k).trans ?_
  rw [maximumf_apply, broadcast_apply]
  refine congrArg₂ max ?_ rfl
  show Ideal.sqrt (shapeCast S8192x1 _ shapeCasts_S8192_S8192x1 (ix2 n (0 : Fin 1))) = _
  refine congrArg Ideal.sqrt ?_
  refine (Cert.Columns.shapeCast_a_a1_apply _ shapeCasts_S8192_S8192x1 n (0 : Fin 1)).trans ?_
  refine (Cert.Columns.rowSum_apply (mulf v0 v0) 0x00000000#32 reduces_S8192x128_S8192 (.inl rfl) rfl n).trans ?_
  rfl

/-- Entry `(b, n)` of the block the body stores: the inner product of row `b` of the query block with row `n` of
    the bank block, the latter divided by its clamped length. -/
theorem payload_apply (v0 : Vec Ideal S8192x128 .f32) (v10 : Vec Ideal S64x128 .f32) (b : Fin 64) (n : Fin 8192) :
    (Gen.k0_pay1 (F := Ideal) v0 v10) (ix2 b n) = ∑ k : Fin 128, v10 (ix2 b k) * Cert.Cosine.unitEntry v0 n k := by
  unfold Gen.k0_pay1
  refine (rowsDot_apply _ _ b n).trans ?_
  refine Finset.sum_congr rfl fun k _ => ?_
  rw [truncf_apply, truncf_apply, shapeCast_self]
  exact congrArg (v10 (ix2 b k) * ·) (unitBlock_apply v0 n k)

/-- Column `n` of the stored block depends on the bank block through its row `n` only. -/
theorem payload_congr_row (v0 v0' : Vec Ideal S8192x128 .f32) (v10 : Vec Ideal S64x128 .f32) (b : Fin 64) (n : Fin 8192)
    (h : ∀ k : Fin 128, v0 (ix2 n k) = v0' (ix2 n k)) :
    (Gen.k0_pay1 (F := Ideal) v0 v10) (ix2 b n) = (Gen.k0_pay1 (F := Ideal) v0' v10) (ix2 b n) := by
  rw [payload_apply, payload_apply]
  refine Finset.sum_congr rfl fun k _ => ?_
  unfold Cert.Cosine.unitEntry Cert.Cosine.rowLen
  simp only [h]

end Cert.KernelIdeal.Hand

end
-- ==== Proof.BodyIdeal.lean ====
/-
  The idealized kernel's body at a grid point, and the run of the whole program.

  At each of the 123 points the body loads the bank's staging block (8192 rows of 128) and the query (64 by 128),
  divides every bank row by its clamped length, takes the 64 by 8192 inner products, and stores them over the
  result's whole staging block. The query's buffer holds the query at every point; the bank's holds the rows just
  fetched and, at the last point, 7616 rows past the bank's end that nothing names; the result's holds anything.
  Column `n` of what is stored depends on the bank block through row `n` alone, so on the 576 columns that the last
  write-back moves the stored block is what the proof data name, whatever the unnamed rows hold.
-/
import proofs.«137248_j17746804867779_1_alg».proof.Proof.Data
import proofs.«137248_j17746804867779_1_alg».proof.Proof.KernelPayload
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## The body's triple, at any float instance -/

section Triple

variable {F : FTy → Type} [FloatOps F]

local notation "𝕄" => MT nD τ sig Unit (Elt F) ℕ (UR sig nD τ) ℕ

/-- The three whole-buffer rectangles the body reads and writes through. -/
abbrev rQ : Rect S64x128 := Rect.unit (s := S64x128) ![0, 0] S64x128.size inb_S64x128_S64x128_0_0
abbrev rB : Rect S8192x128 := Rect.unit (s := S8192x128) ![0, 0] S8192x128.size inb_S8192x128_S8192x128_0_0
abbrev rO : Rect S64x8192 := Rect.unit (s := S64x8192) ![0, 0] S64x8192.size inb_S64x8192_S64x8192_0_0

/-- The result's staging buffer after the body, from what the query's and the bank's buffers hold: its one store. -/
def stored (xq : Vec F S64x128 .f32) (xb : Vec F S8192x128 .f32) : Vec F S64x8192 .f32 :=
  View.canon [⟨rO, k0_pay1 (View.ld xb rB) (View.ld xq rQ)⟩]

/-- The one store covers the buffer. -/
theorem stored_cover (p0 : Vec F S64x8192 .f32) (y : S64x8192.Idx) :
    ∃ pc ∈ ([⟨rO, p0⟩] : List (View.Piece (Elt F) S64x8192 .f32)), y ∈ pc.1.set :=
  View.cover_of_tiled [⟨rO, p0⟩] S64x8192.size (by rfl) y

/-- The offsets of the three rectangles are zero. -/
theorem off_zero : (![0, 0] : Fin 2 → Nat) = fun _ => 0 := funext fun a => by fin_cases a <;> rfl

/-- A store of the whole block over loads of the whole blocks: the stored block is the body's arithmetic of the
    two buffers' contents. -/
theorem stored_eq [∀ e, Nonempty (Elt F e)] (xq : Vec F S64x128 .f32) (xb : Vec F S8192x128 .f32) : stored xq xb = k0_pay1 xb xq := by
  unfold stored
  rw [View.canon_unit_zero off_zero]
  simp only [View.ld_unit_zero (S := S8192x128) off_zero, View.ld_unit_zero (S := S64x128) off_zero]

set_option maxHeartbeats 1000000 in
/-- The body on whole staging memrefs, the query's at `xq`, the bank's at `xb`, the result's at anything: it runs
    to the continuation with the first two as they were and the result's at `stored xq xb`. -/
theorem sound_kernel (c : Dev nD) (E : Set ℕ) (i : grid0.Coords)
    (arg1 : Memref sig .tc .vmem S64x128 .f32) (harg1 : arg1.IsWhole)
    (arg2 : Memref sig .tc .vmem S8192x128 .f32) (harg2 : arg2.IsWhole)
    (arg3 : Memref sig .tc .vmem S64x8192 .f32) (harg3 : arg3.IsWhole)
    (xq : Vec F S64x128 .f32) (xb : Vec F S8192x128 .f32) (K : PUnit → sProp 𝕄) :
    iprop(owns (c : Thread nD τ) arg1 fullShare xq ∗ owns (c : Thread nD τ) arg2 fullShare xb ∗ (∃ d, owns (c : Thread nD τ) arg3 fullShare d)
        ∗ (iprop(owns (c : Thread nD τ) arg1 fullShare xq ∗ owns (c : Thread nD τ) arg2 fullShare xb ∗ owns (c : Thread nD τ) arg3 fullShare (stored xq xb)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

end Triple

/-! ## The proof data read -/

section Run

variable (m : (ℓ : Loc nD τ sig) → Buf (Elt Ideal) ℓ) (ρ : Dev nD → PrngReg)

local notation "𝕄" => MT nD τ sig Unit (Elt Ideal) ℕ (UR sig nD τ) ℕ

theorem A_eq (c : Dev nD) (w : Fin cfg0.W) : (dats m 0 c).A w = V m c (Pipeline.arrRef spec0 w) := by
  dsimp only [dats]

theorem after_query (c : Dev nD) (t : Fin cfg0.N) : (dats m 0 c).after 0 t = iblk m c 0 t := by dsimp only [dats, queryBlock]
theorem after_bank (c : Dev nD) (t : Fin cfg0.N) : (dats m 0 c).after 1 t = bankBlock m c t := by dsimp only [dats]
theorem after_out (c : Dev nD) (t : Fin cfg0.N) : (dats m 0 c).after 2 t = outBlock m c t := by dsimp only [dats]

/-- The query's buffer holds the query at every point, fetched there or not. -/
theorem before_query (c : Dev nD) (t : Fin cfg0.N) (d) : (dats m 0 c).before 0 t d = iblk m c 0 t :=
  before0_0_of m (dats m 0 c) (A_eq m c 0) (after_query m c) t d

/-- The bank's buffer was fetched at every point: the bank's rows of the block on the part the fetch moves, `d`
    (anything) below it. -/
theorem before_bank (c : Dev nD) (t : Fin cfg0.N) (d) :
    (dats m 0 c).before 1 t d = win0_1.fill (grid0.coords t) d (bankPart m c t) := by
  rw [(dats m 0 c).before_fetched 1 t (fetch0_1 t)]
  unfold Dat.fetched Dat.blockOf bankPart iblk
  rw [A_eq]

/-- The result's buffer holds anything: every point writes it back. -/
theorem before_out (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The moved part of the two cut windows -/

/-- At every point the result's window moves as many columns as the bank's window moves rows, the bank's moves all
    128 lanes, and the result's all 64 rows. -/
theorem cut_sizes : ∀ t : Fin cfg0.N,
    win0_2.xsize (grid0.coords t) 1 = win0_1.xsize (grid0.coords t) 0
    ∧ win0_1.xsize (grid0.coords t) 1 = 128 ∧ win0_2.xsize (grid0.coords t) 0 = 64 :=
  (by decide +kernel : ∀ t : Fin grid0.N,
    win0_2.xsize (grid0.coords t) 1 = win0_1.xsize (grid0.coords t) 0
    ∧ win0_1.xsize (grid0.coords t) 1 = 128 ∧ win0_2.xsize (grid0.coords t) 0 = 64)

/-- A row of the bank's buffer that the fetch moved holds the bank's row, whatever was below the bank's end. -/
theorem fill_row_congr (t : Fin cfg0.N) (d d' : S8192x128.Idx → Elt Ideal .f32)
    (g : (win0_1.xblock (grid0.coords t)).Idx → Elt Ideal .f32) (n : Fin 8192) (hn : n.val < win0_1.xsize (grid0.coords t) 0)
    (k : Fin 128) :
    win0_1.fill (grid0.coords t) d g (ix2 n k) = win0_1.fill (grid0.coords t) d' g (ix2 n k) := by
  have hm : win0_1.moved (grid0.coords t) (ix2 n k) = true :=
    (win0_1.moved_iff _ _).mpr fun a => by
      match a with
      | ⟨0, _⟩ => exact hn
      | ⟨1, _⟩ =>
        show k.val < win0_1.xsize (grid0.coords t) 1
        rw [(cut_sizes t).2.1]; exact k.isLt
  unfold Window.fill
  rw [dif_pos hm, dif_pos hm]

/-- On the columns the write-back moves, what the body stored is what the proof data name, whatever the bank's
    buffer held below the bank's end: column `n` of the stored block reads row `n` of the bank block only. -/
theorem cut_stored (c : Dev nD) (t : Fin cfg0.N) (d1 : S8192x128.Idx → Elt Ideal .f32) :
    win0_2.cut (grid0.coords t) (stored (F := Ideal) (iblk m c 0 t) (win0_1.fill (grid0.coords t) d1 (bankPart m c t)))
      = win0_2.cut (grid0.coords t) (outBlock m c t) := by
  funext y
  have hs := cut_sizes t
  have hb : (y 0).val < 64 := by have := (y 0).isLt; rw [← hs.2.2]; exact this
  have hn : (y 1).val < win0_1.xsize (grid0.coords t) 0 := by have := (y 1).isLt; rw [← hs.1]; exact this
  have hn8 : (y 1).val < 8192 := lt_of_lt_of_le hn (win0_1.xsize_le _ 0)
  have e : win0_2.xinj (grid0.coords t) y = ix2 (⟨(y 0).val, hb⟩ : Fin 64) (⟨(y 1).val, hn8⟩ : Fin 8192) := by
    funext a; apply Fin.ext
    match a with
    | ⟨0, _⟩ => rfl
    | ⟨1, _⟩ => rfl
  show stored _ _ (win0_2.xinj _ y) = outBlock m c t (win0_2.xinj _ y)
  rw [e, stored_eq]
  unfold outBlock bankBlock queryBlock
  exact payload_congr_row _ _ _ _ _ fun k => fill_row_congr t _ _ _ _ hn k

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the query's buffer at the query; the bank's and the result's stated on the part their
    transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_query, after_bank, after_out]
  iintro ⟨HΦ, Ho, ⟨%d0, H0⟩, ⟨%d1, H1⟩, ⟨%d2, H2⟩⟩
  rw [before_query m c t d0, before_bank m c t d1, before_out m c t d2]
  iapply (sound_kernel (F := Ideal) c Set.univ (grid0.coords t) _ _ _ _ _ _ (iblk m c 0 t)
    (win0_1.fill (grid0.coords t) d1 (bankPart m c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have e : (cfg0.win 1).fill (cfg0.grid.coords t) d1 ((cfg0.win 1).cut (cfg0.grid.coords t) (bankBlock m c t))
        = win0_1.fill (grid0.coords t) d1 (bankPart m c t) := by
      unfold bankBlock
      exact congrArg _ (win0_1.cut_fill _ _ _)
    rw [e]; iexact H1
  · iexists stored (F := Ideal) (iblk m c 0 t) (win0_1.fill (grid0.coords t) d1 (bankPart m c t))
    have e : (cfg0.win 2).fill (cfg0.grid.coords t) (stored (F := Ideal) (iblk m c 0 t) (win0_1.fill (grid0.coords t) d1 (bankPart m c t)))
          ((cfg0.win 2).cut (cfg0.grid.coords t) (outBlock m c t))
        = stored (F := Ideal) (iblk m c 0 t) (win0_1.fill (grid0.coords t) d1 (bankPart m c t)) :=
      win0_2.fill_congr_cut _ (cut_stored m c t d1)
    rw [e]; iexact H2

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the idealized program terminates, and every final state has each array of the
    pipeline at what the write-backs leave and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The idealized program runs and leaves its three arguments unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Run

end Cert.KernelIdeal.Hand

end
-- ==== Proof.KernelHost.lean ====
/-
  The array the kernel is launched on: what the host operations before the region leave in the query's buffer.

  The twenty-nine operations before the region are a straight line: the squared entries of the query, their row
  sums, the square roots, the clamp from below, the division of every entry by its row's clamped length; beside it
  the weights' maximum, the exponentials of the differences, their sum, the quotients, each divided by its
  temperature, the sum of those; last the product of the unit rows with that scalar spread over the whole array.
  Reading each operation's result at the buffer it writes, and any other buffer as it was, composes these into one
  term over the two argument arrays, and that term is the specification's `scaledQuery` operation for operation.
-/
import proofs.«137248_j17746804867779_1_alg».proof.Proof.Gen.KernelIdeal.Frame
import proofs.«137248_j17746804867779_1_alg».proof.Proof.Spec
import Idealize.ShloMosaic.Lib.StableHlo.Run

set_option maxRecDepth 16384

noncomputable section

open scoped BigOperators

namespace Cert.KernelIdeal.Hand

open Cert.KernelIdeal Cert.KernelIdeal.Gen
open Idealize.ShloMosaic Idealize.SL.Sem

variable (m : (ℓ : Loc nD τ sig) → Buf (Elt Ideal) ℓ)

/-- When the region is entered, window 0's array holds the unit query rows times the scalar. -/
theorem V_query (c : Dev nD) :
    (Gen.V m c main_v18 : S64x128.Idx → EReal)
      = Cert.Cosine.scaledQuery (m ((c.tc : Thread nD τ).loc main_arg0)) (m ((c.tc : Thread nD τ).loc main_arg2)) := by
  -- the contents at region entry are the fold of the three stretches of operations, laid out as one list
  dsimp only [Gen.V]
  simp only [Gen.hostOps0, Gen.hostOps0_1, Gen.hostOps0_2, List.flatten_cons, List.flatten_nil, List.append_nil,
    List.cons_append, List.nil_append]
  -- each operation's result at its own buffer is its function's value; elsewhere the contents are unchanged
  after_results_simp
  -- the composed term is the specification's: the same operations in the same order, the temperatures' table the
  -- same three words, the typed references of the row-length function the identity on contents
  rfl

end Cert.KernelIdeal.Hand

end
-- ==== Proof.KernelValue.lean ====
/-
  The result array after the idealized kernel's run: the fused score at every entry.

  Point `t` of the grid writes back columns `8192 t ‥` of the result: all 8192 of its block but at the last point,
  `t = 122`, where only the 576 columns inside the array are moved (a million is `122 · 8192 + 576`). Entry `(b, n)`
  of what it writes is the inner product of row `b` of the query's block — the whole array the kernel is launched
  on, the unit query rows times the scalar — with the unit row `n` of the bank's block, and that row, being one the
  fetch moved, is row `8192 t + n` of the bank. So each point writes its block of the fused score, and the blocks of
  the points `n / 8192` cover every column `n`.
-/
import proofs.«137248_j17746804867779_1_alg».proof.Proof.Data
import proofs.«137248_j17746804867779_1_alg».proof.Proof.KernelPayload
import proofs.«137248_j17746804867779_1_alg».proof.Proof.KernelHost
import proofs.«137248_j17746804867779_1_alg».proof.Proof.SpecRead
import Idealize.ShloMosaic.Lib.Pipeline.Value

set_option maxRecDepth 16384

noncomputable section

open scoped BigOperators

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (m : (ℓ : Loc nD τ sig) → Buf (Elt Ideal) ℓ)

namespace ResultBlocks

/-! ## The printed index maps and the cut sizes, decided once over the grid -/

/-- The query's one block sits at block index (0, 0); the bank's block at point `t` at (t, 0); the result's at
    (0, t). -/
theorem blockIndex_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What a transfer moves: all 8192 bank rows (result columns) of a block but at the last point, where only the
    576 inside the arrays are moved; every lane of a bank row, every query row of a result column. -/
theorem cutSize_facts : ∀ t : Fin cfg0.N,
    win0_1.xsize (grid0.coords t) (0 : Fin 2) = (if t.val = 122 then 576 else 8192)
    ∧ win0_1.xsize (grid0.coords t) (1 : Fin 2) = 128
    ∧ win0_2.xsize (grid0.coords t) (0 : Fin 2) = 64
    ∧ win0_2.xsize (grid0.coords t) (1 : Fin 2) = (if t.val = 122 then 576 else 8192) :=
  (by decide +kernel : ∀ t : Fin grid0.N, _)

/-! ## Rows -/

/-- The unit entries of a row depend on that row only: two arrays of rows of 128 that agree along a row of each
    have the same unit entries there. -/
theorem unitEntry_congr_row {n n' : ℕ} (x : (⟨2, ![n, 128]⟩ : Shape).Idx → EReal) (x' : (⟨2, ![n', 128]⟩ : Shape).Idx → EReal)
    (r : Fin n) (r' : Fin n') (h : ∀ k : Fin 128, x (ix2 r k) = x' (ix2 r' k)) (k : Fin 128) :
    Cert.Cosine.unitEntry x r k = Cert.Cosine.unitEntry x' r' k := by
  unfold Cert.Cosine.unitEntry Cert.Cosine.rowLen
  simp only [h]

/-- An entry of the query's block is that entry of the array the kernel is launched on: the block is the whole
    array. -/
theorem queryBlock_entry (c : Dev nD) (t : Fin cfg0.N) (b : Fin 64) (k : Fin 128) :
    (queryBlock m c t : S64x128.Idx → EReal) (ix2 b k) = (Gen.V m c main_v18 : S64x128.Idx → EReal) (ix2 b k) := by
  obtain ⟨e0, e1, -⟩ := blockIndex_facts t
  unfold queryBlock Gen.iblk
  rw [View.read_apply]
  show Gen.V m c main_v18 _ = Gen.V m c main_v18 _
  congr 1
  funext a
  apply Fin.ext
  match a with
  | ⟨0, _⟩ => show win0_0.index t (0 : Fin 2) * 64 + 1 * b.val = b.val; rw [e0]; omega
  | ⟨1, _⟩ => show win0_0.index t (1 : Fin 2) * 128 + 1 * k.val = k.val; rw [e1]; omega

/-- Row `n` of the bank's block at point `t`, when the fetch moves it, is row `8192 t + n` of the bank. -/
theorem bankBlock_row (c : Dev nD) (t : Fin cfg0.N) (n : Fin 8192) (k : Fin 128)
    (hn : n.val < win0_1.xsize (grid0.coords t) (0 : Fin 2)) (r : Fin 1000000) (hr : r.val = 8192 * t.val + n.val) :
    (bankBlock m c t : S8192x128.Idx → EReal) (ix2 n k)
      = (m ((c.tc : Thread nD τ).loc main_arg1) : S1000000x128.Idx → EReal) (ix2 r k) := by
  obtain ⟨-, -, e0, e1, -⟩ := blockIndex_facts t
  have hmv : win0_1.moved (grid0.coords t) (ix2 n k) = true := (win0_1.moved_iff _ _).mpr fun a => by
    match a with
    | ⟨0, _⟩ => exact hn
    | ⟨1, _⟩ => show k.val < win0_1.xsize (grid0.coords t) (1 : Fin 2); rw [(cutSize_facts t).2.1]; exact k.isLt
  unfold bankBlock
  rw [Window.fill, dif_pos hmv]
  unfold bankPart Gen.iblk
  rw [View.read_apply, ← Gen.V_main_arg1 m c]
  show Gen.V m c main_arg1 _ = Gen.V m c main_arg1 _
  congr 1
  funext a
  apply Fin.ext
  match a with
  | ⟨0, _⟩ => show win0_1.index t (0 : Fin 2) * 8192 + 1 * n.val = r.val; rw [e0, hr]; omega
  | ⟨1, _⟩ => show win0_1.index t (1 : Fin 2) * 128 + 1 * k.val = k.val; rw [e1]; omega

/-! ## What a point writes back -/

/-- What point `t` writes back — the columns of its block that lie inside the result — is that block of the fused
    score: entry `(b, n)` of the moved part is the inner product of the scaled unit query row `b` with the unit bank
    row `8192 t + n`, which is the fused score's entry `(b, 8192 t + n)`. -/
theorem flushed_eq_fusedScore (c : Dev nD) (t : Fin cfg0.N) :
    (dats m 0 c).flushed (2 : Fin 3) t
      = ((cfg0.win 2).blk t).view.read (Elt Ideal)
          (Cert.Cosine.fusedScore (m ((c.tc : Thread nD τ).loc main_arg0)) (m ((c.tc : Thread nD τ).loc main_arg1))
            (m ((c.tc : Thread nD τ).loc main_arg2))) := by
  obtain ⟨-, -, -, -, i0, i1⟩ := blockIndex_facts t
  obtain ⟨x10, -, x20, x21⟩ := cutSize_facts t
  have hN : t.val < 123 := lt_of_lt_of_eq t.isLt Gen.N_0
  funext y
  have hy0 : (y 0).val < 64 := lt_of_lt_of_eq (y 0).isLt x20
  have hy1 : (y 1).val < win0_2.xsize (grid0.coords t) (1 : Fin 2) := (y 1).isLt
  have hy1' : (y 1).val < 8192 := by rw [x21] at hy1; split at hy1 <;> omega
  have hrow : 8192 * t.val + (y 1).val < 1000000 := by rw [x21] at hy1; split at hy1 <;> omega
  rw [View.read_apply]
  show Gen.k0_pay1 (bankBlock m c t) (queryBlock m c t) (win0_2.xinj (grid0.coords t) y)
    = Cert.Cosine.fusedScore _ _ _ (((cfg0.win 2).blk t).view.emb y)
  have hx : win0_2.xinj (grid0.coords t) y = ix2 (⟨(y 0).val, hy0⟩ : Fin 64) (⟨(y 1).val, hy1'⟩ : Fin 8192) :=
    funext fun a => by
      match a with
      | ⟨0, _⟩ => rfl
      | ⟨1, _⟩ => rfl
  have hj0 : (((cfg0.win 2).blk t).view.emb y) 0 = (⟨(y 0).val, hy0⟩ : Fin 64) := by
    apply Fin.ext
    show win0_2.index t (0 : Fin 2) * 64 + 1 * (y 0).val = (y 0).val
    rw [i0]; omega
  have hj1 : (((cfg0.win 2).blk t).view.emb y) 1 = (⟨8192 * t.val + (y 1).val, hrow⟩ : Fin 1000000) := by
    apply Fin.ext
    show win0_2.index t (1 : Fin 2) * 8192 + 1 * (y 1).val = 8192 * t.val + (y 1).val
    rw [i1]; omega
  rw [hx, payload_apply]
  unfold Cert.Cosine.fusedScore
  show _ = ∑ k : Fin 128, _
  rw [hj0, hj1]
  refine Finset.sum_congr rfl fun k _ => ?_
  rw [queryBlock_entry m c t, V_query m c, Cert.Cosine.scaledQuery_apply]
  congr 1
  refine unitEntry_congr_row _ _ _ _ (fun k' => ?_) k
  exact bankBlock_row m c t _ k' (by rw [x10, ← x21]; exact hy1) _ rfl

/-! ## The blocks cover the result -/

/-- An entry of the result lies in point `t`'s block iff its column is one of the columns `8192 t ‥` that the
    write-back moves (every query row is in every block). -/
theorem mem_columnBlock (t : Fin cfg0.N) (i : S64x1000000.Idx) :
    i ∈ ((cfg0.win 2).blk t).view.set
      ↔ 8192 * t.val ≤ (i 1).val ∧ (i 1).val < 8192 * t.val + (if t.val = 122 then 576 else 8192) := by
  obtain ⟨-, -, -, -, i0, i1⟩ := blockIndex_facts t
  obtain ⟨-, -, x20, x21⟩ := cutSize_facts t
  show i ∈ ((View.whole main_v19).slice (win0_2.rect t)).set ↔ _
  rw [View.set_slice_whole, Rect.mem_set_unit]
  have h0 : (i 0).val < 64 := (i 0).isLt
  constructor
  · intro h
    have h1 : win0_2.index t (1 : Fin 2) * 8192 ≤ (i 1).val
        ∧ (i 1).val < win0_2.index t (1 : Fin 2) * 8192 + win0_2.xsize (grid0.coords t) (1 : Fin 2) := h 1
    rw [i1, x21] at h1
    omega
  · intro h a
    match a with
    | ⟨0, _⟩ =>
      show win0_2.index t (0 : Fin 2) * 64 ≤ (i 0).val
        ∧ (i 0).val < win0_2.index t (0 : Fin 2) * 64 + win0_2.xsize (grid0.coords t) (0 : Fin 2)
      rw [i0, x20]; omega
    | ⟨1, _⟩ =>
      show win0_2.index t (1 : Fin 2) * 8192 ≤ (i 1).val
        ∧ (i 1).val < win0_2.index t (1 : Fin 2) * 8192 + win0_2.xsize (grid0.coords t) (1 : Fin 2)
      rw [i1, x21]; omega

/-- Column `n` of the result is in the block of point `n / 8192`, one of the 123 points since `n` is below a million
    `= 122 · 8192 + 576`. -/
theorem columnBlocks_cover (i : S64x1000000.Idx) :
    ∃ t : Fin cfg0.N, (cfg0.win 2).flush t = true ∧ i ∈ ((cfg0.win 2).blk t).view.set := by
  have h1 : (i 1).val < 1000000 := (i 1).isLt
  have hN : cfg0.N = 123 := Gen.N_0
  refine ⟨⟨(i 1).val / 8192, by rw [hN]; omega⟩, Gen.flush0_2 _, ?_⟩
  rw [mem_columnBlock]
  show 8192 * ((i 1).val / 8192) ≤ (i 1).val
    ∧ (i 1).val < 8192 * ((i 1).val / 8192) + (if (i 1).val / 8192 = 122 then 576 else 8192)
  split <;> omega

end ResultBlocks

/-- After every write-back the result array holds, at `(b, n)`, the inner product of the scaled unit query row `b`
    with the unit bank row `n`: each point writes columns `8192 t ‥` of it, the last point only the 576 columns
    inside the array, and together the 123 blocks cover all the million columns. -/
theorem final (c : Dev nD) :
    ((dats m 0 c).arrAt (2 : Fin 3) cfg0.N : S64x1000000.Idx → EReal)
      = Cert.Cosine.fusedScore (m ((c.tc : Thread nD τ).loc main_arg0)) (m ((c.tc : Thread nD τ).loc main_arg1)) (m ((c.tc : Thread nD τ).loc main_arg2)) :=
  (dats m 0 c).arrAt_eq_of_cover (2 : Fin 3) _ (fun t _ => ResultBlocks.flushed_eq_fusedScore m c t) ResultBlocks.columnBlocks_cover

end Cert.KernelIdeal.Hand

end
-- ==== Proof.BitsFrame.lean ====
/-
  The word-level kernel's run, as far as the frame claim needs it: it terminates, nothing faults, and the three
  argument arrays end as they were.

  The body at a grid point is the same three loads and one store as in the idealized program. What it stores — the
  matrix unit's product of the query with the normalised bank block — is at this instance an opaque function of the
  whole bank block, rows past the bank's end included, so nothing is said of the result's buffer or array: the
  proof data forget the result's window. The query's buffer holds the query at every point and the bank's the rows
  just fetched on the part the fetch moves.
-/
import proofs.«137248_j17746804867779_1_alg».proof.Proof.Gen.Kernel.Frame
import proofs.«137248_j17746804867779_1_alg».proof.Proof.Gen.Kernel.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The body's triple -/

/-- The three whole-buffer rectangles the body reads and writes through. -/
abbrev rQ : Rect S64x128 := Rect.unit (s := S64x128) ![0, 0] S64x128.size inb_S64x128_S64x128_0_0
abbrev rB : Rect S8192x128 := Rect.unit (s := S8192x128) ![0, 0] S8192x128.size inb_S8192x128_S8192x128_0_0
abbrev rO : Rect S64x8192 := Rect.unit (s := S64x8192) ![0, 0] S64x8192.size inb_S64x8192_S64x8192_0_0

/-- The result's staging buffer after the body, from what the query's and the bank's buffers hold: its one store. -/
def stored (xq : Vec F S64x128 .f32) (xb : Vec F S8192x128 .f32) : Vec F S64x8192 .f32 :=
  View.canon [⟨rO, k0_pay1 (View.ld xb rB) (View.ld xq rQ)⟩]

/-- The one store covers the buffer. -/
theorem stored_cover (p0 : Vec F S64x8192 .f32) (y : S64x8192.Idx) :
    ∃ pc ∈ ([⟨rO, p0⟩] : List (View.Piece (Elt F) S64x8192 .f32)), y ∈ pc.1.set :=
  View.cover_of_tiled [⟨rO, p0⟩] S64x8192.size (by rfl) y

set_option maxHeartbeats 1000000 in
/-- The body on whole staging memrefs, the query's at `xq`, the bank's at `xb`, the result's at anything: it runs
    to the continuation with the first two as they were and the result's at `stored xq xb`. -/
theorem sound_kernel (c : Dev nD) (E : Set ℕ) (i : grid0.Coords)
    (arg1 : Memref sig .tc .vmem S64x128 .f32) (harg1 : arg1.IsWhole)
    (arg2 : Memref sig .tc .vmem S8192x128 .f32) (harg2 : arg2.IsWhole)
    (arg3 : Memref sig .tc .vmem S64x8192 .f32) (harg3 : arg3.IsWhole)
    (xq : Vec F S64x128 .f32) (xb : Vec F S8192x128 .f32) (K : PUnit → sProp 𝕄) :
    iprop(owns (c : Thread nD τ) arg1 fullShare xq ∗ owns (c : Thread nD τ) arg2 fullShare xb ∗ (∃ d, owns (c : Thread nD τ) arg3 fullShare d)
        ∗ (iprop(owns (c : Thread nD τ) arg1 fullShare xq ∗ owns (c : Thread nD τ) arg2 fullShare xb ∗ owns (c : Thread nD τ) arg3 fullShare (stored xq xb)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-! ## The proof data -/

variable (m : (ℓ : Loc nD τ sig) → Buf (Elt F) ℓ) (ρ : Dev nD → PrngReg)

/-- The rows of the bank that point `t` fetches and that lie inside the bank. -/
def bankPart (c : Dev nD) (t : Fin cfg0.N) : (win0_1.xblock (grid0.coords t)).Idx → Elt F .f32 :=
  Gen.iblk m c 1 t

/-- Those rows as a full block of 8192 rows: zeros below the bank's end. -/
def bankBlock (c : Dev nD) (t : Fin cfg0.N) : S8192x128.Idx → Elt F .f32 :=
  win0_1.fill (grid0.coords t) (fun _ => Scalar.ofBits .f32 0#32) (bankPart m c t)

/-- The proof data: the arrays as the region finds them; after the body the query's buffer at the query and the
    bank's at its block; of the result's nothing is used (its window is forgotten below). -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => bankBlock m c t
    | ⟨2, _⟩ => fun _ => Scalar.ofBits .f32 0#32
  Φ _ := Pipeline.ΦA spec0 c
  q _ := fullShare
  owed _ := 0

/-- The windows whose contents the frame does not read: the result's. -/
abbrev forgetOut : Fin cfg0.W → Bool := fun
  | ⟨0, _⟩ => false
  | ⟨1, _⟩ => false
  | ⟨2, _⟩ => true
  | ⟨_ + 3, h⟩ => absurd h (Nat.not_lt.2 (Nat.le_add_left _ _))

theorem A_eq (c : Dev nD) (w : Fin cfg0.W) : (dats m 0 c).A w = V m c (Pipeline.arrRef spec0 w) := by
  dsimp only [dats]

theorem after_query (c : Dev nD) (t : Fin cfg0.N) : (dats m 0 c).after 0 t = iblk m c 0 t := by dsimp only [dats]
theorem after_bank (c : Dev nD) (t : Fin cfg0.N) : (dats m 0 c).after 1 t = bankBlock m c t := by dsimp only [dats]

/-- The query's buffer holds the query at every point, fetched there or not. -/
theorem before_query (c : Dev nD) (t : Fin cfg0.N) (d) : (dats m 0 c).before 0 t d = iblk m c 0 t :=
  before0_0_of m (dats m 0 c) (A_eq m c 0) (after_query m c) t d

/-- The bank's buffer was fetched at every point: the bank's rows of the block on the part the fetch moves, `d`
    (anything) below it. -/
theorem before_bank (c : Dev nD) (t : Fin cfg0.N) (d) :
    (dats m 0 c).before 1 t d = win0_1.fill (grid0.coords t) d (bankPart m c t) := by
  rw [(dats m 0 c).before_fetched 1 t (fetch0_1 t)]
  unfold Dat.fetched Dat.blockOf bankPart iblk
  rw [A_eq]

/-! ## The body obligation, the result's window forgotten -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_query, after_bank]
  iintro ⟨HΦ, Ho, ⟨%d0, H0⟩, ⟨%d1, H1⟩, ⟨%d2, H2⟩⟩
  rw [before_query m c t d0, before_bank m c t d1]
  iapply (sound_kernel c Set.univ (grid0.coords t) _ _ _ _ _ _ (iblk m c 0 t)
    (win0_1.fill (grid0.coords t) d1 (bankPart m c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have e : (cfg0.win 1).fill (cfg0.grid.coords t) d1 ((cfg0.win 1).cut (cfg0.grid.coords t) (bankBlock m c t))
        = win0_1.fill (grid0.coords t) d1 (bankPart m c t) := by
      unfold bankBlock
      exact congrArg _ (win0_1.cut_fill _ _ _)
    rw [e]; iexact H1
  · iexists _; iexact H2

/-- The library's body obligation at every point, the result's window handed over and taken back at any contents. -/
theorem body_obligation (c : Dev nD) :
    BodyObligationLoose (dats m 0 c) (defs₀ (F := F)) Variants.none () Set.univ forgetOut := fun t => by
  rw [bigSep_W0, bigSep_W0]
  exact sound_body m c t

/-! ## The run and the frame -/

set_option backward.isDefEq.respectTransparency.types false in
/-- Every weakly fair execution of the program terminates, and every final state has each input array of the
    pipeline as the region found it and every other unscoped buffer likewise. -/
theorem run_main : θ_run defs (onTc (τ := τ) (main (F := F))) (s₀ m ρ)
    (RDat.FramePost (cfgs 0) (fun c => (dats m 0 c).toRForget forgetOut) (V m)) :=
  RDat.θ_run_frame cfgs (0 : Fin 1) launch0 defs₀ Variants.none (fun c => (dats m 0 c).toRForget forgetOut) m ρ main
    (hbody := fun c => (body_obligation m c).toRForget)
    (hshare := fun c => ((dats m 0 c).toRForget forgetOut).share_full fun _ => rfl)
    (howed := fun _ _ => rfl) (V := V m) (hmain := hmain m Variants.none) (hA := fun c w => A_eq m c w) (hΦ := fun _ _ => rfl)

/-- The program runs and leaves its three arguments unchanged: the bank is an input of the pipeline, the query
    and the weights are buffers the region does not touch, and no host operation before it writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      (RDat.FramePost.arr_in h c 1 rfl).trans ((A_eq m c 1).trans (V_main_arg1 m c)),
      ((h c).2 main_arg2 (Pipeline.mem_restRefs_of main_arg2 (by decide) (by decide))).trans (V_main_arg2 m c)⟩)
    (run_main m ρ)

end Cert.Kernel.Hand

end
-- ==== Proof.lean ====
/-
  The certificate: the cosine-similarity kernel against its reference.

  Both programs compute, for 64 query rows and a million bank rows of 128 numbers, the inner product of each unit
  query row with each unit bank row (a row divided by its Euclidean length, the length clamped below at a small
  positive constant), times one scalar: the sum over three weights of their softmax probability divided by a
  temperature. The kernel multiplies the scalar into the unit query before the products are taken; the reference
  multiplies the finished products. On the extended reals the two differ only by moving a common factor across a
  sum of 128 terms, which is sound because under the precondition every input entry is a real number, and then so
  are the unit rows and the scalar.

  The kernel streams the bank through 123 blocks of 8192 rows; the last block holds 576 rows of the bank and its
  remaining rows are words nothing names. Column `n` of a block's result reads row `n` of the bank block only, and
  the write-back of the last point moves just the 576 columns inside the result, so those words reach no kept entry.

  The frames: each program terminates without a fault and leaves its arguments as they were. For the word-level
  kernel nothing is said of the result (the matrix unit's product is opaque in its whole operand there); for the
  idealized kernel and the reference the frame is the value run with the result dropped.
-/
import proofs.«137248_j17746804867779_1_alg».proof.Defs
import proofs.«137248_j17746804867779_1_alg».proof.Proof.Gen.Kernel
import proofs.«137248_j17746804867779_1_alg».proof.Proof.Gen.KernelIdeal
import proofs.«137248_j17746804867779_1_alg».proof.Proof.Gen.ReferenceIdeal
import proofs.«137248_j17746804867779_1_alg».proof.Proof.Gen.Pre_finite_inputs
import proofs.«137248_j17746804867779_1_alg».proof.Proof.Spec
import proofs.«137248_j17746804867779_1_alg».proof.Proof.SpecRead
import proofs.«137248_j17746804867779_1_alg».proof.Proof.Algebra
import proofs.«137248_j17746804867779_1_alg».proof.Proof.Finite
import proofs.«137248_j17746804867779_1_alg».proof.Proof.RefRun
import proofs.«137248_j17746804867779_1_alg».proof.Proof.BodyIdeal
import proofs.«137248_j17746804867779_1_alg».proof.Proof.KernelValue
import proofs.«137248_j17746804867779_1_alg».proof.Proof.BitsFrame
import Idealize.ShloMosaic.Adequacy
import Idealize.ShloMosaic.Init

noncomputable section

namespace Cert.Proof

open Idealize.ShloMosaic Idealize.SL.Sem

/-! ## The idealized kernel's value run -/

section KernelRun

open Cert.KernelIdeal Cert.KernelIdeal.Gen Cert.KernelIdeal.Hand

/-- Every weakly fair execution of the idealized kernel program terminates with the result array at the fused
    score of the argument arrays, and the arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
          = Cert.Cosine.fusedScore (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end KernelRun

/-! ## The claims -/

theorem frame_kernel : Cert.frame_Kernel := fun m ρ _ => Cert.Kernel.Hand.frame (F := Bits) m ρ

theorem frame_kernelIdeal : Cert.frame_KernelIdeal := fun m ρ _ => Cert.KernelIdeal.Hand.frame m ρ

/-- The reference's frame is its value run with the result dropped. -/
theorem frame_reference : Cert.frame_ReferenceIdeal := fun m ρ _ =>
  (θ_run Cert.ReferenceIdeal.defs _ _).mono (fun _ h c => (h c).2) (Cert.ReferenceIdeal.HandRun.run m ρ)

/-- The idealization rewrote nothing. -/
theorem preserves : Cert.preserves_Kernel_KernelIdeal := trivial

/-- From memories agreeing on the arguments both idealized programs end with one result: the kernel's at the fused
    score, the reference's at the plain score, and under the precondition (every entry real) the two are equal. -/
theorem algebraic : Cert.algebraic_KernelIdeal_ReferenceIdeal := by
  intro m ρ m' ρ' hpre hagree
  refine ⟨fun c => Cert.Cosine.fusedScore
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), kernel_run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2, Cert.Cosine.plainResult_eq]
  obtain ⟨hz, he, hw⟩ := Cert.KernelIdeal.Hand.real_of_pre m hpre c
  exact (Cert.Cosine.fused_eq_plain _ _ _ hz he hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
